-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x4096x4096 : Shape := ⟨3, ![4, 4096, 4096]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S4x4096x4096 1) : IVec S_ 1 :=
  let main_c_5 : IVec S_ 1 := constantI S_ 1 1#1
  let main_v17 : IVec S_ 1 := (fun x v => Host.reduce IntOp.andi x v reducesTo_S4x4096x4096_S_d0_1_2 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S4x4096x256 .f32) (main_arg1 : FVec F S4x4096x256 .f32) (main_arg2 : FVec F S4x4096x256 .f32) (main_arg3 : FVec F S4x4096x4096 .f32) (main_arg4 : FVec F S256x256 .f32) (main_arg5 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x4096x256 .f32 := Host.absf main_arg2
  let main_cst_2 : FVec F S_ .f32 := constant S_ .f32 0x7F800000#32
  let main_v10 : FVec F S4x4096x256 .f32 := broadcastInDim S4x4096x256 ![] bcast_S_S4x4096x256 main_cst_2
  let main_v11 : IVec S4x4096x256 1 := cmpf .olt main_v9 main_v10
  let main_c_3 : IVec S_ 1 := constantI S_ 1 1#1
  let main_v12 : IVec S_ 1 := (fun x v => Host.reduce IntOp.andi x v reducesTo_S4x4096x256_S_d0_1_2 h_S_) main_v11 main_c_3
  let main_v13 : IVec S_ 1 := andi main_v8 main_v12
  let main_v14 : FVec F S4x4096x4096 .f32 := Host.absf main_arg3
  let main_cst_4 : FVec F S_ .f32 := constant S_ .f32 0x7F800000#32
  let main_v15 : FVec F S4x4096x4096 .f32 := broadcastInDim S4x4096x4096 ![] bcast_S_S4x4096x4096 main_cst_4
  let main_v16 : IVec S4x4096x4096 1 := cmpf .olt main_v14 main_v15
  fn_part1 (F := F) main_arg4 main_arg5 main_v13 main_v16
-- ==== Kernel.lean ====
abbrev S4x4096x256 : Shape := ⟨3, ![4, 4096, 256]⟩
abbrev S4x4096x4096 : Shape := ⟨3, ![4, 4096, 4096]⟩
abbrev S256x256 : Shape := ⟨2, ![256, 256]⟩
abbrev S256 : Shape := ⟨1, ![256]⟩
abbrev S1x2048x256 : Shape := ⟨3, ![1, 2048, 256]⟩
abbrev S1x512x256 : Shape := ⟨3, ![1, 512, 256]⟩
abbrev S1x2048x512 : Shape := ⟨3, ![1, 2048, 512]⟩
abbrev S2048x256 : Shape := ⟨2, ![2048, 256]⟩
abbrev S2048x1 : Shape := ⟨2, ![2048, 1]⟩
abbrev S1x256 : Shape := ⟨2, ![1, 256]⟩
abbrev S512x256 : Shape := ⟨2, ![512, 256]⟩
abbrev S2048x512 : Shape := ⟨2, ![2048, 512]⟩
abbrev S2048 : Shape := ⟨1, ![2048]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S4x4096x4096, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S4x4096x256, .f32⟩
  | .local _ .vmem, ⟨0, _⟩ => ⟨S1x2048x256, .f32⟩
  | .local _ .vmem, ⟨1, _⟩ => ⟨S1x2048x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x2048x512, .f32⟩
  | .local _ .vmem, ⟨7, _⟩ => ⟨S1x2048x512, .f32⟩
  | .local _ .vmem, ⟨8, _⟩ => ⟨S256x256, .f32⟩
  | .local _ .vmem, ⟨9, _⟩ => ⟨S256, .f32⟩
  | .local _ .vmem, ⟨10, _⟩ => ⟨S1x2048x256, .f32⟩
  | .local _ .vmem, ⟨11, _⟩ => ⟨S1x2048x256, .f32⟩
  | .local _ .vmem, ⟨12, _⟩ => ⟨S2048x256, .f32⟩
  | .local _ .vmem, ⟨13, _⟩ => ⟨S2048x1, .f32⟩
  | .local _ .vmem, ⟨14, _⟩ => ⟨S2048x1, .f32⟩
  | .local _ .vmem, ⟨15, _⟩ => ⟨S2048x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v48 : BitVec 1 := Scalar.cmpi .eq arg2 c7_i32
  let v49 : BitVec 32 := Scalar.extui v48
  let c0_i32_28 : BitVec 32 := 0#32
  let v50 : BitVec 1 := Scalar.cmpi .ne v49 c0_i32_28
  v50

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  transposes_S256x256_S256x256_1_0 : S256x256.Transposes [1, 0] S256x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x256 : S2048x1.Broadcasts S2048x256
  shapeCasts_S2048x256_S1x2048x256 : S2048x256.ShapeCasts S1x2048x256
  dot_S2048x256_S256x256_S2048x256_1_0_0_1_n_n_wf : DotDims.WF S2048x256 S256x256 S2048x256 [1] [0] [0] [1] [] []
  dot_S2048x256_S512x256_S2048x512_1_1_0_0_n_n_wf : DotDims.WF S2048x256 S512x256 S2048x512 [1] [1] [0] [0] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S4x4096x256.size a
  hwx0_0 : ∀ i : grid0.Coords, EltTy.bits .f32 = 32 ∨ (Rect.block (s := S4x4096x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S4x4096x256.size a
  hwx0_1 : ∀ i : grid0.Coords, EltTy.bits .f32 = 32 ∨ (Rect.block (s := S4x4096x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S4x4096x256.size a
  hwx0_2 : ∀ i : grid0.Coords, EltTy.bits .f32 = 32 ∨ (Rect.block (s := S4x4096x256) S1x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S4x4096x4096.size a
  hwx0_3 : ∀ i : grid0.Coords, EltTy.bits .f32 = 32 ∨ (Rect.block (s := S4x4096x4096) S1x2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x256.size a ≤ S4x4096x256.size a
  hwx0_6 : ∀ i : grid0.Coords, EltTy.bits .f32 = 32 ∨ (Rect.block (s := S4x4096x256) S1x2048x256.size (cc0_transform_6 i) (hinb0_6 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S4x4096x4096 : Shape := ⟨3, ![4, 4096, 4096]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S4x4096x4096, .f32⟩
  | .hbm, ⟨4, _⟩ => ⟨S256x256, .f32⟩
  | .hbm, ⟨5, _⟩ => ⟨S256, .f32⟩
  | .hbm, ⟨6, _⟩ => ⟨S4x4096x256, .f32⟩
  | .hbm, ⟨7, _⟩ => ⟨S1x1x256, .f32⟩
  | .hbm, ⟨8, _⟩ => ⟨S4x4096x256, .f32⟩
  | .hbm, ⟨9, _⟩ => ⟨S4x4096x256, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S4x4096x4096, .f32⟩
  | .hbm, ⟨31, _⟩ => ⟨S4x4096x4096, .f32⟩
  | .hbm, ⟨32, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.OnlineSoftmax.lean ====
/-
  The arithmetic of a softmax-weighted average evaluated block by block.

  For real scores `σ k` and real values `ν k` over a finite set of keys the weighted average is
  `(∑ k, exp (σ k) · ν k) / (∑ k, exp (σ k))`. It does not change when every score is shifted by one real
  number `μ`: numerator and denominator both pick up the factor `exp (-μ)`. A running evaluation keeps,
  after the keys seen so far, a shift `μ`, the sum `exp (-μ) · Z` and the weighted sum `exp (-μ) · N`
  (`Z`, `N` the unshifted sums over the keys seen); taking in a further block under a new shift `μ'`
  multiplies both by `exp (μ - μ')` and adds the block's terms shifted by `μ'`, which gives
  `exp (-μ') · (Z + block)` and `exp (-μ') · (N + block)` again. Before the first block the shift is `-∞`
  and both sums are `0`; `exp (-∞) = 0` makes the first step the same formula with `Z = N = 0`.
  The shift itself (a running maximum) only has to be a real number.

  Everything is stated on the extended reals for values that are real numbers (`IsReal`), in the shape
  the two programs' elementwise operations produce, with the right-hand sides as coercions of reals.
-/
import Idealize.ShloMosaic.PureOps.Ideal

noncomputable section

namespace OnlineSoftmax

open Idealize.ShloMosaic

/-- An extended real that is a real number. -/
def IsReal (x : EReal) : Prop := ∃ r : ℝ, x = (r : EReal)

theorem isReal_coe (r : ℝ) : IsReal (r : EReal) := ⟨r, rfl⟩

theorem IsReal.coe_toReal {x : EReal} (h : IsReal x) : ((x.toReal : ℝ) : EReal) = x := by
  obtain ⟨r, rfl⟩ := h
  rw [EReal.toReal_coe]

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {ι : Type} (s : Finset ι) (f : ι → EReal) (h : ∀ i ∈ s, IsReal (f i)) :
    IsReal (∑ i ∈ s, f i) := by
  classical
  revert h
  refine Finset.induction_on s ?_ ?_
  · intro _
    exact ⟨0, by simp⟩
  · intro a s ha ih h
    rw [Finset.sum_insert ha]
    exact (h a (Finset.mem_insert_self a s)).add (ih (fun i hi => h i (Finset.mem_insert_of_mem hi)))

/-- The coercion commutes with finite sums. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem toReal_add {x y : EReal} (hx : IsReal x) (hy : IsReal y) : (x + y).toReal = x.toReal + y.toReal := by
  obtain ⟨a, rfl⟩ := hx
  obtain ⟨b, rfl⟩ := hy
  rw [← EReal.coe_add, EReal.toReal_coe, EReal.toReal_coe, EReal.toReal_coe]

theorem toReal_sub {x y : EReal} (hx : IsReal x) (hy : IsReal y) : (x - y).toReal = x.toReal - y.toReal := by
  obtain ⟨a, rfl⟩ := hx
  obtain ⟨b, rfl⟩ := hy
  rw [← EReal.coe_sub, EReal.toReal_coe, EReal.toReal_coe, EReal.toReal_coe]

theorem toReal_mul' {x y : EReal} (hx : IsReal x) (hy : IsReal y) : (x * y).toReal = x.toReal * y.toReal := by
  obtain ⟨a, rfl⟩ := hx
  obtain ⟨b, rfl⟩ := hy
  rw [← EReal.coe_mul, EReal.toReal_coe, EReal.toReal_coe, EReal.toReal_coe]

/-- The largest of finitely many (at least one) real numbers, folded from `-∞`, is a real number. -/
theorem fold_max_isReal {κ : Type} [Fintype κ] [Nonempty κ] (s : κ → EReal) (hs : ∀ c, IsReal (s c)) :
    IsReal ((Finset.univ : Finset κ).fold max (⊥ : EReal) s) := by
  have h1 : (⊥ : EReal) < (Finset.univ : Finset κ).fold max (⊥ : EReal) s := by
    rw [Finset.lt_fold_max]
    right
    obtain ⟨c⟩ := ‹Nonempty κ›
    obtain ⟨r, hr⟩ := hs c
    exact ⟨c, Finset.mem_univ c, by rw [hr]; exact EReal.bot_lt_coe r⟩
  have h2 : (Finset.univ : Finset κ).fold max (⊥ : EReal) s < ⊤ := by
    rw [Finset.fold_max_lt]
    refine ⟨bot_lt_top, fun c _ => ?_⟩
    obtain ⟨r, hr⟩ := hs c
    rw [hr]
    exact EReal.coe_lt_top r
  exact ⟨_, (EReal.coe_toReal h2.ne h1.ne').symm⟩

theorem max_isReal {x y : EReal} (hx : IsReal x) (hy : IsReal y) : IsReal (max x y) := by
  rcases max_choice x y with h | h <;> rw [h] <;> assumption

theorem max_bot_isReal {y : EReal} (hy : IsReal y) : IsReal (max (⊥ : EReal) y) := by
  rw [max_eq_right bot_le]
  exact hy

section Step

variable {κ : Type} [Fintype κ]

/-- One shifted term: `exp (s c - μ') = exp (-μ') · exp (s c)` for a real `s c`. -/
private theorem exp_shift (s : κ → EReal) (hs : ∀ c, IsReal (s c)) (μ' : ℝ) (c : κ) :
    Ideal.exp (s c - (μ' : EReal)) = ((Real.exp (-μ') * Real.exp (s c).toReal : ℝ) : EReal) := by
  obtain ⟨r, hr⟩ := hs c
  rw [hr, ← EReal.coe_sub, Ideal.exp_coe, EReal.toReal_coe, show r - μ' = -μ' + r by ring, Real.exp_add]

/-- One shifted weighted term. -/
private theorem exp_shift_mul (s v : κ → EReal) (hs : ∀ c, IsReal (s c)) (hv : ∀ c, IsReal (v c)) (μ' : ℝ) (c : κ) :
    Ideal.exp (s c - (μ' : EReal)) * v c
      = ((Real.exp (-μ') * (Real.exp (s c).toReal * (v c).toReal) : ℝ) : EReal) := by
  obtain ⟨w, hw⟩ := hv c
  rw [exp_shift s hs μ' c, hw, ← EReal.coe_mul, EReal.toReal_coe, mul_assoc]

/-- The first block's sum: from shift `-∞` and sum `0`. -/
theorem first_sum (s : κ → EReal) (hs : ∀ c, IsReal (s c)) (μ' : ℝ) :
    Ideal.exp ((⊥ : EReal) - (μ' : EReal)) * 0 + ∑ c, Ideal.exp (s c - (μ' : EReal))
      = ((Real.exp (-μ') * ∑ c, Real.exp (s c).toReal : ℝ) : EReal) := by
  rw [EReal.bot_sub, Ideal.exp_bot, mul_zero, zero_add,
    Finset.sum_congr rfl (fun c _ => exp_shift s hs μ' c), ← coe_sum, Finset.mul_sum]

/-- The first block's weighted sum. -/
theorem first_wsum (s v : κ → EReal) (hs : ∀ c, IsReal (s c)) (hv : ∀ c, IsReal (v c)) (μ' : ℝ) :
    Ideal.exp ((⊥ : EReal) - (μ' : EReal)) * 0 + ∑ c, Ideal.exp (s c - (μ' : EReal)) * v c
      = ((Real.exp (-μ') * ∑ c, Real.exp (s c).toReal * (v c).toReal : ℝ) : EReal) := by
  rw [EReal.bot_sub, Ideal.exp_bot, mul_zero, zero_add,
    Finset.sum_congr rfl (fun c _ => exp_shift_mul s v hs hv μ' c), ← coe_sum, Finset.mul_sum]

/-- A further block's sum: the old sum rescaled from shift `μ` to `μ'`, plus the block under `μ'`. -/
theorem next_sum (s : κ → EReal) (hs : ∀ c, IsReal (s c)) (μ μ' Z : ℝ) :
    Ideal.exp ((μ : EReal) - (μ' : EReal)) * ((Real.exp (-μ) * Z : ℝ) : EReal) + ∑ c, Ideal.exp (s c - (μ' : EReal))
      = ((Real.exp (-μ') * (Z + ∑ c, Real.exp (s c).toReal) : ℝ) : EReal) := by
  have e : Real.exp (μ - μ') * Real.exp (-μ) = Real.exp (-μ') := by
    rw [← Real.exp_add]
    congr 1
    ring
  rw [← EReal.coe_sub, Ideal.exp_coe, ← EReal.coe_mul,
    Finset.sum_congr rfl (fun c _ => exp_shift s hs μ' c), ← coe_sum, ← EReal.coe_add]
  congr 1
  rw [← Finset.mul_sum, mul_add, ← mul_assoc, e]

/-- A further block's weighted sum. -/
theorem next_wsum (s v : κ → EReal) (hs : ∀ c, IsReal (s c)) (hv : ∀ c, IsReal (v c)) (μ μ' N : ℝ) :
    Ideal.exp ((μ : EReal) - (μ' : EReal)) * ((Real.exp (-μ) * N : ℝ) : EReal) + ∑ c, Ideal.exp (s c - (μ' : EReal)) * v c
      = ((Real.exp (-μ') * (N + ∑ c, Real.exp (s c).toReal * (v c).toReal) : ℝ) : EReal) := by
  have e : Real.exp (μ - μ') * Real.exp (-μ) = Real.exp (-μ') := by
    rw [← Real.exp_add]
    congr 1
    ring
  rw [← EReal.coe_sub, Ideal.exp_coe, ← EReal.coe_mul,
    Finset.sum_congr rfl (fun c _ => exp_shift_mul s v hs hv μ' c), ← coe_sum, ← EReal.coe_add]
  congr 1
  rw [← Finset.mul_sum, mul_add, ← mul_assoc, e]

end Step

/-- The quotient of the two running sums is the weighted average: the common factor cancels. -/
theorem final_div (μ N Z : ℝ) (hZ : 0 < Z) :
    Ideal.div ((Real.exp (-μ) * N : ℝ) : EReal) ((Real.exp (-μ) * Z : ℝ) : EReal) = ((N / Z : ℝ) : EReal) := by
  have hE : Real.exp (-μ) ≠ 0 := (Real.exp_pos _).ne'
  have hZ' : Z ≠ 0 := hZ.ne'
  rw [Ideal.div_coe (mul_ne_zero hE hZ'), ← EReal.coe_mul]
  congr 1
  field_simp

/-- A sum of exponentials over a nonempty finite set is positive. -/
theorem sum_exp_pos {κ : Type} [Fintype κ] [Nonempty κ] (σ : κ → ℝ) : 0 < ∑ c, Real.exp (σ c) := by
  exact Finset.sum_pos (fun c _ => Real.exp_pos _) Finset.univ_nonempty

/-- The whole-row form: scores shifted by any real `M`, normalised by their sum (taken from `0`), then
    weighted — the same average. -/
theorem softmax_avg {κ : Type} [Fintype κ] [Nonempty κ] (s v : κ → EReal) (hs : ∀ c, IsReal (s c))
    (hv : ∀ c, IsReal (v c)) (M : ℝ) :
    ∑ j, Ideal.div (Ideal.exp (s j - (M : EReal))) (0 + ∑ j', Ideal.exp (s j' - (M : EReal))) * v j
      = (((∑ j, Real.exp (s j).toReal * (v j).toReal) / (∑ j, Real.exp (s j).toReal) : ℝ) : EReal) := by
  have hM : ∀ c, Ideal.exp (s c - (M : EReal)) = ((Real.exp (-M) * Real.exp (s c).toReal : ℝ) : EReal) := by
    intro c
    obtain ⟨r, hr⟩ := hs c
    rw [hr, ← EReal.coe_sub, Ideal.exp_coe, EReal.toReal_coe, show r - M = -M + r by ring, Real.exp_add]
  have hT : (∑ c, Real.exp (s c).toReal) ≠ 0 := (sum_exp_pos fun c => (s c).toReal).ne'
  have hE : Real.exp (-M) ≠ 0 := (Real.exp_pos _).ne'
  have hden : (0 : EReal) + ∑ j', Ideal.exp (s j' - (M : EReal))
      = ((Real.exp (-M) * ∑ c, Real.exp (s c).toReal : ℝ) : EReal) := by
    rw [zero_add, Finset.sum_congr rfl (fun c _ => hM c), ← coe_sum, Finset.mul_sum]
  have hterm : ∀ j, Ideal.div (Ideal.exp (s j - (M : EReal)))
        ((Real.exp (-M) * ∑ c, Real.exp (s c).toReal : ℝ) : EReal) * v j
      = ((Real.exp (s j).toReal * (v j).toReal / (∑ c, Real.exp (s c).toReal) : ℝ) : EReal) := by
    intro j
    obtain ⟨w, hw⟩ := hv j
    rw [Ideal.div_coe (mul_ne_zero hE hT), hM j, hw, ← EReal.coe_mul, ← EReal.coe_mul, EReal.toReal_coe]
    congr 1
    field_simp
  rw [hden, Finset.sum_congr rfl (fun j _ => hterm j), ← coe_sum, Finset.sum_div]

/-! ## Eight blocks of 512 keys -/

/-- Key `c` of block `j`. -/
def kix (j : Fin 8) (c : Fin 512) : Fin 4096 := ⟨512 * j.val + c.val, by have := j.isLt; have := c.isLt; omega⟩

/-- The sum of `f` over the first `J` blocks. -/
def partialBlocks (f : Fin 4096 → ℝ) : ℕ → ℝ
  | 0 => 0
  | J + 1 => partialBlocks f J + (if h : J < 8 then ∑ c : Fin 512, f (kix ⟨J, h⟩ c) else 0)

theorem partialBlocks_zero (f : Fin 4096 → ℝ) : partialBlocks f 0 = 0 := rfl

theorem partialBlocks_succ (f : Fin 4096 → ℝ) (j : Fin 8) :
    partialBlocks f (j.val + 1) = partialBlocks f j.val + ∑ c : Fin 512, f (kix j c) := by
  rw [partialBlocks, dif_pos j.isLt]

/-- All eight blocks: the sum over every key. -/
theorem partialBlocks_eight (f : Fin 4096 → ℝ) : partialBlocks f 8 = ∑ k : Fin 4096, f k := by
  have h : ∑ k : Fin 4096, f k = ∑ j : Fin 8, ∑ c : Fin 512, f (kix j c) := by
    rw [← Fintype.sum_prod_type' (f := fun (j : Fin 8) (c : Fin 512) => f (kix j c))]
    symm
    refine Fintype.sum_equiv (finProdFinEquiv : Fin 8 × Fin 512 ≃ Fin 4096) _ _ (fun x => ?_)
    congr 1
    apply Fin.ext
    simp only [kix, finProdFinEquiv_apply_val]
    omega
  have e := partialBlocks_succ f
  have h8 : partialBlocks f 8 = partialBlocks f 7 + ∑ c : Fin 512, f (kix 7 c) := e 7
  have h7 : partialBlocks f 7 = partialBlocks f 6 + ∑ c : Fin 512, f (kix 6 c) := e 6
  have h6 : partialBlocks f 6 = partialBlocks f 5 + ∑ c : Fin 512, f (kix 5 c) := e 5
  have h5 : partialBlocks f 5 = partialBlocks f 4 + ∑ c : Fin 512, f (kix 4 c) := e 4
  have h4 : partialBlocks f 4 = partialBlocks f 3 + ∑ c : Fin 512, f (kix 3 c) := e 3
  have h3 : partialBlocks f 3 = partialBlocks f 2 + ∑ c : Fin 512, f (kix 2 c) := e 2
  have h2 : partialBlocks f 2 = partialBlocks f 1 + ∑ c : Fin 512, f (kix 1 c) := e 1
  have h1 : partialBlocks f 1 = partialBlocks f 0 + ∑ c : Fin 512, f (kix 0 c) := e 0
  rw [h, Fin.sum_univ_eight, h8, h7, h6, h5, h4, h3, h2, h1, partialBlocks_zero, zero_add]

end OnlineSoftmax

end
-- ==== Proof.Spec.lean ====
/-
  What the attention block computes, as one function of its six argument arrays.

  `proj` is the projected query `q · Wᵀ + b`; `score` is `proj · kᵀ` minus the additive mask term
  `10⁶ · (1 - mask)`; the result at `(batch, row, column)` is the softmax of the row's 4096 scores used as
  weights on the rows of `v`: `(∑ j, exp (score j) · v j) / (∑ j, exp (score j))`, written without the
  usual shift by the row maximum, which cancels (OnlineSoftmax.lean). The scores are kept as the
  extended-real expression both programs compute; under finite inputs each is a real number.
-/
import proofs.«430789_j24842090840792_3_alg».proof.Proof.OnlineSoftmax
import Idealize.ShloMosaic.Lib.ValueIdx

noncomputable section

namespace Attn

open Idealize.ShloMosaic Idealize.ShloMosaic.ValueIdx OnlineSoftmax

abbrev Sqkv : Shape := ⟨3, ![4, 4096, 256]⟩
abbrev Smask : Shape := ⟨3, ![4, 4096, 4096]⟩
abbrev Sw : Shape := ⟨2, ![256, 256]⟩
abbrev Sb : Shape := ⟨1, ![256]⟩

/-- Every entry of an array is a real number. -/
def AllReal {S : Shape} (x : S.Idx → EReal) : Prop := ∀ i, IsReal (x i)

/-- The literal `1.0`. -/
def one : EReal := Ideal.ofBits .f32 0x3F800000#32
/-- The literal `1.0e6`. -/
def big : EReal := Ideal.ofBits .f32 0x49742400#32

theorem one_isReal : IsReal one := by
  have h : one = ((1 : ℝ) : EReal) := by
    unfold one
    simp [Ideal.ofBits, Ideal.ieee, -EReal.coe_mul]
    norm_num
  exact ⟨1, h⟩

theorem big_isReal : IsReal big := by
  have h : big = ((1000000 : ℝ) : EReal) := by
    unfold big
    simp [Ideal.ofBits, Ideal.ieee, -EReal.coe_mul]
    norm_num
  exact ⟨1000000, h⟩

variable (q k v : Sqkv.Idx → EReal) (msk : Smask.Idx → EReal) (W : Sw.Idx → EReal) (b : Sb.Idx → EReal)

/-- The projected query at row `n` of batch `bi`, output feature `o`: `∑ h, q[bi, n, h] · W[o, h] + b[o]`. -/
def proj (bi : Fin 4) (n : Fin 4096) (o : Fin 256) : EReal :=
  (∑ h : Fin 256, q (ix3 bi n h) * W (ix2 o h)) + b (ix1 o)

/-- The masked score of query row `n` against key row `j`. -/
def score (bi : Fin 4) (n j : Fin 4096) : EReal :=
  (∑ h : Fin 256, proj q W b bi n h * k (ix3 bi j h)) - big * (one - msk (ix3 bi n j))

/-- The weighted average at `(bi, n, h)`, a real number. -/
def avg (bi : Fin 4) (n : Fin 4096) (h : Fin 256) : ℝ :=
  (∑ j : Fin 4096, Real.exp (score q k msk W b bi n j).toReal * (v (ix3 bi j h)).toReal)
    / (∑ j : Fin 4096, Real.exp (score q k msk W b bi n j).toReal)

/-- The result array. -/
def G : Sqkv.Idx → EReal := fun i => ((avg q k v msk W b (i 0) (i 1) (i 2) : ℝ) : EReal)

theorem G_ix3 (bi : Fin 4) (n : Fin 4096) (h : Fin 256) :
    G q k v msk W b (ix3 bi n h) = ((avg q k v msk W b bi n h : ℝ) : EReal) := rfl

variable {q k v msk W b}

theorem proj_isReal (hq : AllReal q) (hW : AllReal W) (hb : AllReal b) (bi : Fin 4) (n : Fin 4096) (o : Fin 256) :
    IsReal (proj q W b bi n o) := by
  unfold proj
  exact (isReal_sum _ _ (fun h _ => (hq _).mul (hW _))).add (hb _)

theorem score_isReal (hq : AllReal q) (hk : AllReal k) (hm : AllReal msk) (hW : AllReal W) (hb : AllReal b)
    (bi : Fin 4) (n j : Fin 4096) : IsReal (score q k msk W b bi n j) := by
  unfold score
  exact (isReal_sum _ _ (fun h _ => (proj_isReal hq hW hb bi n h).mul (hk _))).sub
    (big_isReal.mul (one_isReal.sub (hm _)))

end Attn

end
-- ==== Proof.Finite.lean ====
/-
  From the precondition to real entries: `finite_inputs` says of each of the six argument arrays that every
  entry's absolute value is below `+∞`; an extended real with `|x| < +∞` is a real number.
-/
import proofs.«430789_j24842090840792_3_alg».proof.Pre_finite_inputs
import proofs.«430789_j24842090840792_3_alg».proof.Proof.Gen.Pre_finite_inputs
import proofs.«430789_j24842090840792_3_alg».proof.Proof.Spec
import Idealize.ShloMosaic.Lib.ReduceAll

noncomputable section

namespace Attn

open Idealize.ShloMosaic Idealize.ShloMosaic.ValueIdx OnlineSoftmax

/-- The shape of a single word has one index. -/
local instance subsingleton_scalarIdx : Subsingleton Cert.Pre_finite_inputs.S_.Idx :=
  ⟨fun a b => funext fun d => d.elim0⟩

/-- The word `0x7F800000` is `+∞`. -/
private theorem inf_eq_top : Ideal.ofBits .f32 0x7F800000#32 = (⊤ : EReal) := by
  simp [Ideal.ofBits, Ideal.ieee]

/-- An extended real whose absolute value `max x (-x)` is below `+∞` is a real number: at `-∞` and at `+∞`
    the absolute value is `+∞`. -/
private theorem isReal_of_abs_lt_top (x : EReal) (h : max x (-x) < ⊤) : IsReal x := by
  induction x using EReal.rec with
  | bot => simp at h
  | coe r => exact ⟨r, rfl⟩
  | top => simp at h

/-- An array whose all-axes reduction by `and` of `|x| < +∞` is 1 has real entries: the reduction being 1, every
    compared entry is 1, which says `max (x i) (-(x i)) < +∞`. -/
private theorem allReal_of_all_finite {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
        (cmpf .olt (Host.absf x)
          (broadcastInDim S ![] hb (constant (F := Ideal) Cert.Pre_finite_inputs.S_ .f32 0x7F800000#32)))
        (constantI Cert.Pre_finite_inputs.S_ 1 1#1) hr hu j = 1#1) :
    AllReal (S := S) x := by
  intro i
  have hi := Host.reduce_andi_all _ _ hr hu j e i
  apply isReal_of_abs_lt_top
  have hi' : Ideal.cmp .olt (max (x i) (-(x i))) (Ideal.ofBits .f32 0x7F800000#32) = 1#1 := hi
  rw [inf_eq_top] at hi'
  unfold Ideal.cmp at hi'
  by_contra hn
  simp [hn] at hi'

/-- The `and` of two arrays of `i1` words is 1 at an index exactly when both are. -/
private theorem andi_ix_eq_one {s : Shape} (a b : IVec s 1) (i : s.Idx) :
    andi a b i = 1#1 ↔ a i = 1#1 ∧ b i = 1#1 := IntOp.andi_eq_one

/-- Under `finite_inputs` every entry of every argument array is a real number. -/
theorem allReal_of_finite
    (x0 x1 x2 : FVec Ideal Cert.Pre_finite_inputs.S4x4096x256 .f32) (x3 : FVec Ideal Cert.Pre_finite_inputs.S4x4096x4096 .f32)
    (x4 : FVec Ideal Cert.Pre_finite_inputs.S256x256 .f32) (x5 : FVec Ideal Cert.Pre_finite_inputs.S256 .f32)
    (h : Cert.Pre_finite_inputs.fn (F := Ideal) x0 x1 x2 x3 x4 x5 = fun _ => 1#1) :
    AllReal (S := Sqkv) x0 ∧ AllReal (S := Sqkv) x1 ∧ AllReal (S := Sqkv) x2 ∧ AllReal (S := Smask) x3
      ∧ AllReal (S := Sw) x4 ∧ AllReal (S := Sb) x5 := by
  have h0 := congrFun h ValueIdx.ix0
  dsimp only [Cert.Pre_finite_inputs.fn, Cert.Pre_finite_inputs.fn_part1] at h0
  simp only [andi_ix_eq_one] at h0
  obtain ⟨⟨⟨⟨⟨e0, e1⟩, e2⟩, e3⟩, e4⟩, e5⟩ := h0
  exact ⟨allReal_of_all_finite x0 _ _ _ _ e0, allReal_of_all_finite x1 _ _ _ _ e1,
    allReal_of_all_finite x2 _ _ _ _ e2, allReal_of_all_finite x3 _ _ _ _ e3,
    allReal_of_all_finite x4 _ _ _ _ e4, allReal_of_all_finite x5 _ _ _ _ e5⟩

end Attn

end
-- ==== Proof.RefValue.lean ====
/-
  The reference's result is the weighted average `G`: its projected query and scores are `proj` and `score`
  term by term, its row maximum is some real number `M`, and `exp (score - M)` normalised by its row sum and
  contracted with `v` is the average (OnlineSoftmax.softmax_avg).
-/
import proofs.«430789_j24842090840792_3_alg».proof.Proof.Gen.ReferenceIdeal.Read
import proofs.«430789_j24842090840792_3_alg».proof.Proof.Spec

noncomputable section

namespace Attn.Ref

open Cert.ReferenceIdeal Cert.ReferenceIdeal.Gen Cert.ReferenceIdeal.Read Idealize.ShloMosaic Idealize.ShloMosaic.ValueIdx OnlineSoftmax Attn

section Stages

variable (x0 x1 x2 : (⟨S4x4096x256, .f32⟩ : BufTy).Contents (Elt Ideal)) (x3 : (⟨S4x4096x4096, .f32⟩ : BufTy).Contents (Elt Ideal))
  (x4 : (⟨S256x256, .f32⟩ : BufTy).Contents (Elt Ideal)) (x5 : (⟨S256, .f32⟩ : BufTy).Contents (Elt Ideal))

/-! ## The index functions on coordinates -/

theorem lidx0 (bi : Fin 4) (n : Fin 4096) (o k : Fin 256) : lidx_main_v0 (ix3 bi n o) k = ix3 bi n k :=
  funext fun a => by match a with | ⟨0, _⟩ => rfl | ⟨1, _⟩ => rfl | ⟨2, _⟩ => rfl

theorem ridx0 (bi : Fin 4) (n : Fin 4096) (o k : Fin 256) : ridx_main_v0 (ix3 bi n o) k = ix2 o k :=
  funext fun a => by match a with | ⟨0, _⟩ => rfl | ⟨1, _⟩ => rfl

theorem idx12 (bi : Fin 4) (n : Fin 4096) (o : Fin 256) : idx_main_v1 (idx_main_v2 (ix3 bi n o)) = ix1 o :=
  funext fun a => by match a with | ⟨0, _⟩ => rfl

theorem lidx4 (bi : Fin 4) (n j : Fin 4096) (k : Fin 256) : lidx_main_v4 (ix3 bi n j) k = ix3 bi n k :=
  funext fun a => by match a with | ⟨0, _⟩ => rfl | ⟨1, _⟩ => rfl | ⟨2, _⟩ => rfl

theorem ridx4 (bi : Fin 4) (n j : Fin 4096) (k : Fin 256) : ridx_main_v4 (ix3 bi n j) k = ix3 bi j k :=
  funext fun a => by match a with | ⟨0, _⟩ => rfl | ⟨1, _⟩ => rfl | ⟨2, _⟩ => rfl

theorem idx1314 (bi : Fin 4) (n j : Fin 4096) : idx_main_v13 (idx_main_v14 (ix3 bi n j)) = ix2 bi n :=
  funext fun a => by match a with | ⟨0, _⟩ => rfl | ⟨1, _⟩ => rfl

theorem idx1819 (bi : Fin 4) (n j : Fin 4096) : idx_main_v18 (idx_main_v19 (ix3 bi n j)) = ix2 bi n :=
  funext fun a => by match a with | ⟨0, _⟩ => rfl | ⟨1, _⟩ => rfl

theorem idx17 (bi : Fin 4) (n k : Fin 4096) : idx_main_v17 (ix2 bi n) k = ix3 bi n k :=
  funext fun a => by match a with | ⟨0, _⟩ => rfl | ⟨1, _⟩ => rfl | ⟨2, _⟩ => rfl

theorem lidx21 (bi : Fin 4) (n : Fin 4096) (h : Fin 256) (k : Fin 4096) : lidx_main_v21 (ix3 bi n h) k = ix3 bi n k :=
  funext fun a => by match a with | ⟨0, _⟩ => rfl | ⟨1, _⟩ => rfl | ⟨2, _⟩ => rfl

theorem ridx21 (bi : Fin 4) (n : Fin 4096) (h : Fin 256) (k : Fin 4096) : ridx_main_v21 (ix3 bi n h) k = ix3 bi k h :=
  funext fun a => by match a with | ⟨0, _⟩ => rfl | ⟨1, _⟩ => rfl | ⟨2, _⟩ => rfl

/-! ## The projected query and the scores -/

/-- The projected query is `proj`. -/
theorem v3_eq (bi : Fin 4) (n : Fin 4096) (o : Fin 256) :
    val_main_v3 (F := Ideal) x0 x4 x5 (ix3 bi n o) = proj x0 x4 x5 bi n o := by
  rw [val_main_v3_apply, val_main_v0_apply, val_main_v2_apply, val_main_v1_apply, idx12, Ideal.addf_def]
  unfold proj
  congr 1
  refine Finset.sum_congr rfl fun k _ => ?_
  rw [lidx0, ridx0]

/-- The masked score is `score`. -/
theorem v9_eq (bi : Fin 4) (n j : Fin 4096) :
    val_main_v9 (F := Ideal) x0 x1 x3 x4 x5 (ix3 bi n j) = score x0 x1 x3 x4 x5 bi n j := by
  rw [val_main_v9_apply, val_main_v4_apply, val_main_v8_apply, val_main_v7_apply, val_main_v6_apply,
    val_main_v5_apply, val_main_cst_apply, val_main_cst_0_apply, Ideal.subf_def, Ideal.subf_def, Ideal.mulf_def,
    Ideal.ofBits_def, Ideal.ofBits_def]
  unfold score one big
  congr 1
  refine Finset.sum_congr rfl fun k _ => ?_
  rw [lidx4, ridx4, v3_eq]

end Stages

section Max

variable {x0 x1 x2 : (⟨S4x4096x256, .f32⟩ : BufTy).Contents (Elt Ideal)} {x3 : (⟨S4x4096x4096, .f32⟩ : BufTy).Contents (Elt Ideal)}
  {x4 : (⟨S256x256, .f32⟩ : BufTy).Contents (Elt Ideal)} {x5 : (⟨S256, .f32⟩ : BufTy).Contents (Elt Ideal)}

/-- Every score the reference computes is a real number. -/
theorem v9_isReal (h0 : AllReal (S := Sqkv) x0) (h1 : AllReal (S := Sqkv) x1) (h3 : AllReal (S := Smask) x3)
    (h4 : AllReal (S := Sw) x4) (h5 : AllReal (S := Sb) x5) (i : S4x4096x4096.Idx) :
    IsReal (val_main_v9 (F := Ideal) x0 x1 x3 x4 x5 i) := by
  obtain ⟨bi, n, j, rfl⟩ : ∃ (bi : Fin 4) (n j : Fin 4096), i = ix3 bi n j := ⟨i 0, i 1, i 2, eq_ix3 i⟩
  rw [v9_eq]
  exact score_isReal h0 h1 h3 h4 h5 bi n j

/-- The literal the row maximum starts from is `-∞`. -/
theorem ninf_eq : Ideal.ofBits .f32 0xFF800000#32 = (⊥ : EReal) := by simp [Ideal.ofBits, Ideal.ieee]

/-- The row maximum, a fold of `max` from `-∞` over the row's 4096 real scores, is a real number. -/
theorem v10_isReal (h0 : AllReal (S := Sqkv) x0) (h1 : AllReal (S := Sqkv) x1) (h3 : AllReal (S := Smask) x3)
    (h4 : AllReal (S := Sw) x4) (h5 : AllReal (S := Sb) x5) (j : S4x4096.Idx) :
    IsReal (val_main_v10 (F := Ideal) x0 x1 x3 x4 x5 j) := by
  unfold val_main_v10
  rw [Host.reduce_eq_fold_single (FloatOps.maximumf (F := Ideal) (φ := .f32)) _ _ reducesTo_S4x4096x4096_S4x4096_d2
    (by decide) h_S_ j, val_main_cst_1_apply, Ideal.ofBits_def, ninf_eq]
  haveI : Nonempty (Fin (S4x4096x4096.size 2)) := ⟨⟨0, by decide⟩⟩
  exact fold_max_isReal _ fun c => v9_isReal h0 h1 h3 h4 h5 _

/-- The shift the reference subtracts: the larger of `-∞` and the row maximum, a real number. -/
theorem v12_isReal (h0 : AllReal (S := Sqkv) x0) (h1 : AllReal (S := Sqkv) x1) (h3 : AllReal (S := Smask) x3)
    (h4 : AllReal (S := Sw) x4) (h5 : AllReal (S := Sb) x5) (j : S4x4096.Idx) :
    IsReal (val_main_v12 (F := Ideal) x0 x1 x3 x4 x5 j) := by
  rw [val_main_v12_apply, val_main_v11_apply, val_main_cst_2_apply, Ideal.maximumf_def, Ideal.ofBits_def, ninf_eq]
  exact max_bot_isReal (v10_isReal h0 h1 h3 h4 h5 j)

end Max

section Final

variable {x0 x1 x2 : (⟨S4x4096x256, .f32⟩ : BufTy).Contents (Elt Ideal)} {x3 : (⟨S4x4096x4096, .f32⟩ : BufTy).Contents (Elt Ideal)}
  {x4 : (⟨S256x256, .f32⟩ : BufTy).Contents (Elt Ideal)} {x5 : (⟨S256, .f32⟩ : BufTy).Contents (Elt Ideal)}

/-- The exponential stage: `exp` of the score less the row's shift. -/
theorem v16_eq (bi : Fin 4) (n k : Fin 4096) :
    val_main_v16 (F := Ideal) x0 x1 x3 x4 x5 (ix3 bi n k)
      = Ideal.exp (score x0 x1 x3 x4 x5 bi n k - val_main_v12 (F := Ideal) x0 x1 x3 x4 x5 (ix2 bi n)) := by
  rw [val_main_v16_apply, val_main_v15_apply, val_main_v14_apply, val_main_v13_apply, idx1314, v9_eq,
    Ideal.hostUnary_exp_def, Ideal.subf_def]

/-- The normaliser: the row sum of the exponentials, taken from `0`. -/
theorem v19_eq (bi : Fin 4) (n k : Fin 4096) :
    val_main_v19 (F := Ideal) x0 x1 x3 x4 x5 (ix3 bi n k)
      = 0 + ∑ k' : Fin 4096, Ideal.exp (score x0 x1 x3 x4 x5 bi n k' - val_main_v12 (F := Ideal) x0 x1 x3 x4 x5 (ix2 bi n)) := by
  rw [val_main_v19_apply, val_main_v18_apply, idx1819, val_main_v17_apply, val_main_cst_3_apply, Ideal.ofBits_def,
    Ideal.ofBits_zero_f32]
  congr 1
  refine Finset.sum_congr rfl fun k' _ => ?_
  rw [idx17, v16_eq]

end Final

/-- The reference run's result term is `G` of the arguments, for arguments with real entries. -/
theorem result_eq (x0 x1 x2 : (⟨S4x4096x256, .f32⟩ : BufTy).Contents (Elt Ideal)) (x3 : (⟨S4x4096x4096, .f32⟩ : BufTy).Contents (Elt Ideal))
    (x4 : (⟨S256x256, .f32⟩ : BufTy).Contents (Elt Ideal)) (x5 : (⟨S256, .f32⟩ : BufTy).Contents (Elt Ideal))
    (h0 : AllReal (S := Sqkv) x0) (h1 : AllReal (S := Sqkv) x1) (h2 : AllReal (S := Sqkv) x2) (h3 : AllReal (S := Smask) x3)
    (h4 : AllReal (S := Sw) x4) (h5 : AllReal (S := Sb) x5) :
    Cert.ReferenceIdeal.Read.val_main_v21 (F := Ideal) x0 x1 x2 x3 x4 x5 = G (q := x0) (k := x1) (v := x2) (msk := x3) (W := x4) (b := x5) := by
  funext i
  obtain ⟨bi, n, h, rfl⟩ : ∃ (bi : Fin 4) (n : Fin 4096) (h : Fin 256), i = ix3 bi n h := ⟨i 0, i 1, i 2, eq_ix3 i⟩
  obtain ⟨M, hM⟩ := v12_isReal h0 h1 h3 h4 h5 (ix2 bi n)
  rw [G_ix3, val_main_v21_apply]
  unfold avg
  rw [← softmax_avg (fun j => score x0 x1 x3 x4 x5 bi n j) (fun j => x2 (ix3 bi j h))
    (fun j => score_isReal h0 h1 h3 h4 h5 bi n j) (fun j => h2 _) M]
  refine Finset.sum_congr rfl fun k _ => ?_
  rw [lidx21, ridx21, val_main_v20_apply, Ideal.hostDivf_def, v16_eq, v19_eq, hM]

end Attn.Ref

end
-- ==== Proof.KernelPieces.lean ====
/-
  The body's three cases read as values. At a tile's first key block the body recomputes the projected query and
  resets the running maximum to -∞ and both running sums to 0 before the update; at the later blocks it updates
  over what the block before left; at the last block it also stores the quotient of the two sums. Each buffer a
  case stores into ends at the value of the last whole-buffer store, and a load after a store reads that store.
-/
import proofs.«430789_j24842090840792_3_alg».proof.Proof.Gen.KernelIdeal.Frame
import Idealize.ShloMosaic.Lib.Pipeline.Value
import Idealize.ShloMosaic.Lib.Tactic

set_option maxRecDepth 16384

noncomputable section

namespace Attn.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl
theorem hz3 : (![0, 0, 0] : Fin 3 → Nat) = fun _ => 0 := funext fun a => by fin_cases a <;> rfl

variable (c : Dev nD) (i : grid0.Coords) (arg3 : Memref sig .tc .vmem S1x2048x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x2048x512 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x256 .f32) (harg13 : arg13.IsWhole)
  (x0 : Vec F S1x2048x256 .f32) (x1 : Vec F S1x512x256 .f32) (x2 : Vec F S1x512x256 .f32) (x3 : Vec F S1x2048x512 .f32) (x4 : Vec F S256x256 .f32) (x5 : Vec F S256 .f32)
/-- What each case of the body leaves in the four scratch buffers and in the output block, as values: the pieces the
    run of a case found are whole-buffer stores, so each buffer ends at its last store's value, a function of the
    point's input blocks and (in the later cases) of what the point before left. -/

theorem sA0 (hc0 : cond0_0 i) (hc1 : ¬cond0_1 i)  :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5
      = (k0_pay4 x0 x4 x5) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg10.read_unread, harg11.read_unread, harg12.read_unread, harg13.read_unread, View.readCov_unit_zero (S := S2048x256) _ hz2, View.readCov_unit_zero (S := S2048x1) _ hz2, View.ld_unit_zero (S := S2048x256) hz2, View.ld_unit_zero (S := S2048x1) hz2, View.ld_unit_zero (S := S256x256) hz2, View.ld_unit_zero (S := S1x512x256) hz3, View.ld_unit_zero (S := S1x2048x512) hz3, View.ld_unit_zero (S := S1x2048x256) hz3, View.ld_unit_zero (S := S256) hz1]

theorem sA1 (hc0 : cond0_0 i) (hc1 : ¬cond0_1 i)  :
    sout0_A_1 c i arg3 harg3 arg4 harg4 arg5 harg5 arg6 harg6 arg7 harg7 arg8 harg8 arg9 harg9 arg10 harg10 arg11 harg11 arg12 harg12 arg13 harg13 hc0 hc1 x0 x1 x2 x3 x4 x5
      = k0_pay2 (k0_pay9 (k0_pay4 x0 x4 x5) x1 x3 k0_pay5) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S2048x1) hz2]
  simp only [View.readAt_eq_ld, harg3.read_unread, harg4.read_unread, harg5.read_unread, harg6.read_unread, harg7.read_unread, harg8.read_unread, harg10.read_unread, harg11.read_unread, harg12.read_unread, harg13.read_unread, View.readCov_unit_zero (S := S2048x256) _ hz2, View.readCov_unit_zero (S := S2048x1) _ hz2, View.ld_unit_zero (S := S2048x256) hz2, View.ld_unit_zero (S := S2048x1) hz2, View.ld_unit_zero (S := S256x256) hz2, View.ld_unit_zero (S := S1x512x256) hz3, View.ld_unit_zero (S := S1x2048x512) hz3, View.ld_unit_zero (S := S1x2048x256) hz3, View.ld_unit_zero (S := S256) hz1]

theorem sA2 (hc0 : cond0_0 i) (hc1 : ¬cond0_1 i)  :
    sout0_A_2 c i arg3 harg3 arg4 harg4 arg5 harg5 arg6 harg6 arg7 harg7 arg8 harg8 arg9 harg9 arg10 harg10 arg11 harg11 arg12 harg12 arg13 harg13 hc0 hc1 x0 x1 x2 x3 x4 x5
      = k0_pay12 (k0_pay4 x0 x4 x5) x1 x3 k0_pay5 k0_pay6 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S2048x1) hz2]
  simp only [View.readAt_eq_ld, harg3.read_unread, harg4.read_unread, harg5.read_unread, harg6.read_unread, harg7.read_unread, harg8.read_unread, harg10.read_unread, harg11.read_unread, harg12.read_unread, harg13.read_unread, View.readCov_unit_zero (S := S2048x256) _ hz2, View.readCov_unit_zero (S := S2048x1) _ hz2, View.ld_unit_zero (S := S2048x256) hz2, View.ld_unit_zero (S := S2048x1) hz2, View.ld_unit_zero (S := S256x256) hz2, View.ld_unit_zero (S := S1x512x256) hz3, View.ld_unit_zero (S := S1x2048x512) hz3, View.ld_unit_zero (S := S1x2048x256) hz3, View.ld_unit_zero (S := S256) hz1]

theorem sA3 (hc0 : cond0_0 i) (hc1 : ¬cond0_1 i)  :
    sout0_A_3 c i arg3 harg3 arg4 harg4 arg5 harg5 arg6 harg6 arg7 harg7 arg8 harg8 arg9 harg9 arg10 harg10 arg11 harg11 arg12 harg12 arg13 harg13 hc0 hc1 x0 x1 x2 x3 x4 x5
      = k0_pay1 (k0_pay10 (k0_pay4 x0 x4 x5) x1 x3 k0_pay5) (k0_pay11 (k0_pay4 x0 x4 x5) x1 x3 k0_pay5) x2 k0_pay7 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S2048x256) hz2]
  simp only [View.readAt_eq_ld, harg3.read_unread, harg4.read_unread, harg5.read_unread, harg6.read_unread, harg7.read_unread, harg8.read_unread, harg10.read_unread, harg11.read_unread, harg12.read_unread, harg13.read_unread, View.readCov_unit_zero (S := S2048x256) _ hz2, View.readCov_unit_zero (S := S2048x1) _ hz2, View.ld_unit_zero (S := S2048x256) hz2, View.ld_unit_zero (S := S2048x1) hz2, View.ld_unit_zero (S := S256x256) hz2, View.ld_unit_zero (S := S1x512x256) hz3, View.ld_unit_zero (S := S1x2048x512) hz3, View.ld_unit_zero (S := S1x2048x256) hz3, View.ld_unit_zero (S := S256) hz1]

theorem sB0 (hc0 : ¬cond0_0 i) (hc1 : ¬cond0_1 i) (xs0 : Vec F S2048x256 .f32) (xs1 : Vec F S2048x1 .f32) (xs2 : Vec F S2048x1 .f32) (xs3 : Vec F S2048x256 .f32) :
    sout0_B_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = xs0 := rfl

theorem sB1 (hc0 : ¬cond0_0 i) (hc1 : ¬cond0_1 i) (xs0 : Vec F S2048x256 .f32) (xs1 : Vec F S2048x1 .f32) (xs2 : Vec F S2048x1 .f32) (xs3 : Vec F S2048x256 .f32) :
    sout0_B_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3
      = k0_pay2 (k0_pay9 xs0 x1 x3 xs1) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg10.read_unread, harg11.read_unread, harg12.read_unread, harg13.read_unread, View.readCov_unit_zero (S := S2048x256) _ hz2, View.readCov_unit_zero (S := S2048x1) _ hz2, View.ld_unit_zero (S := S2048x256) hz2, View.ld_unit_zero (S := S2048x1) hz2, View.ld_unit_zero (S := S256x256) hz2, View.ld_unit_zero (S := S1x512x256) hz3, View.ld_unit_zero (S := S1x2048x512) hz3, View.ld_unit_zero (S := S1x2048x256) hz3, View.ld_unit_zero (S := S256) hz1]

theorem sB2 (hc0 : ¬cond0_0 i) (hc1 : ¬cond0_1 i) (xs0 : Vec F S2048x256 .f32) (xs1 : Vec F S2048x1 .f32) (xs2 : Vec F S2048x1 .f32) (xs3 : Vec F S2048x256 .f32) :
    sout0_B_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3
      = k0_pay12 xs0 x1 x3 xs1 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg10.read_unread, harg11.read_unread, harg12.read_unread, harg13.read_unread, View.readCov_unit_zero (S := S2048x256) _ hz2, View.readCov_unit_zero (S := S2048x1) _ hz2, View.ld_unit_zero (S := S2048x256) hz2, View.ld_unit_zero (S := S2048x1) hz2, View.ld_unit_zero (S := S256x256) hz2, View.ld_unit_zero (S := S1x512x256) hz3, View.ld_unit_zero (S := S1x2048x512) hz3, View.ld_unit_zero (S := S1x2048x256) hz3, View.ld_unit_zero (S := S256) hz1]

theorem sB3 (hc0 : ¬cond0_0 i) (hc1 : ¬cond0_1 i) (xs0 : Vec F S2048x256 .f32) (xs1 : Vec F S2048x1 .f32) (xs2 : Vec F S2048x1 .f32) (xs3 : Vec F S2048x256 .f32) :
    sout0_B_3 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3
      = k0_pay1 (k0_pay10 xs0 x1 x3 xs1) (k0_pay11 xs0 x1 x3 xs1) x2 xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg10.read_unread, harg11.read_unread, harg12.read_unread, harg13.read_unread, View.readCov_unit_zero (S := S2048x256) _ hz2, View.readCov_unit_zero (S := S2048x1) _ hz2, View.ld_unit_zero (S := S2048x256) hz2, View.ld_unit_zero (S := S2048x1) hz2, View.ld_unit_zero (S := S256x256) hz2, View.ld_unit_zero (S := S1x512x256) hz3, View.ld_unit_zero (S := S1x2048x512) hz3, View.ld_unit_zero (S := S1x2048x256) hz3, View.ld_unit_zero (S := S256) hz1]

theorem sC0 (hc0 : ¬cond0_0 i) (hc1 : cond0_1 i) (xs0 : Vec F S2048x256 .f32) (xs1 : Vec F S2048x1 .f32) (xs2 : Vec F S2048x1 .f32) (xs3 : Vec F S2048x256 .f32) :
    sout0_C_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = xs0 := rfl

theorem sC1 (hc0 : ¬cond0_0 i) (hc1 : cond0_1 i) (xs0 : Vec F S2048x256 .f32) (xs1 : Vec F S2048x1 .f32) (xs2 : Vec F S2048x1 .f32) (xs3 : Vec F S2048x256 .f32) :
    sout0_C_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3
      = k0_pay2 (k0_pay9 xs0 x1 x3 xs1) := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg10.read_unread, harg11.read_unread, harg12.read_unread, harg13.read_unread, View.readCov_unit_zero (S := S2048x256) _ hz2, View.readCov_unit_zero (S := S2048x1) _ hz2, View.ld_unit_zero (S := S2048x256) hz2, View.ld_unit_zero (S := S2048x1) hz2, View.ld_unit_zero (S := S256x256) hz2, View.ld_unit_zero (S := S1x512x256) hz3, View.ld_unit_zero (S := S1x2048x512) hz3, View.ld_unit_zero (S := S1x2048x256) hz3, View.ld_unit_zero (S := S256) hz1]

theorem sC2 (hc0 : ¬cond0_0 i) (hc1 : cond0_1 i) (xs0 : Vec F S2048x256 .f32) (xs1 : Vec F S2048x1 .f32) (xs2 : Vec F S2048x1 .f32) (xs3 : Vec F S2048x256 .f32) :
    sout0_C_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3
      = k0_pay12 xs0 x1 x3 xs1 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg10.read_unread, harg11.read_unread, harg12.read_unread, harg13.read_unread, View.readCov_unit_zero (S := S2048x256) _ hz2, View.readCov_unit_zero (S := S2048x1) _ hz2, View.ld_unit_zero (S := S2048x256) hz2, View.ld_unit_zero (S := S2048x1) hz2, View.ld_unit_zero (S := S256x256) hz2, View.ld_unit_zero (S := S1x512x256) hz3, View.ld_unit_zero (S := S1x2048x512) hz3, View.ld_unit_zero (S := S1x2048x256) hz3, View.ld_unit_zero (S := S256) hz1]

theorem sC3 (hc0 : ¬cond0_0 i) (hc1 : cond0_1 i) (xs0 : Vec F S2048x256 .f32) (xs1 : Vec F S2048x1 .f32) (xs2 : Vec F S2048x1 .f32) (xs3 : Vec F S2048x256 .f32) :
    sout0_C_3 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3
      = k0_pay1 (k0_pay10 xs0 x1 x3 xs1) (k0_pay11 xs0 x1 x3 xs1) x2 xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg10.read_unread, harg11.read_unread, harg12.read_unread, harg13.read_unread, View.readCov_unit_zero (S := S2048x256) _ hz2, View.readCov_unit_zero (S := S2048x1) _ hz2, View.ld_unit_zero (S := S2048x256) hz2, View.ld_unit_zero (S := S2048x1) hz2, View.ld_unit_zero (S := S256x256) hz2, View.ld_unit_zero (S := S1x512x256) hz3, View.ld_unit_zero (S := S1x2048x512) hz3, View.ld_unit_zero (S := S1x2048x256) hz3, View.ld_unit_zero (S := S256) hz1]

theorem oC6 (hc0 : ¬cond0_0 i) (hc1 : cond0_1 i) (xs0 : Vec F S2048x256 .f32) (xs1 : Vec F S2048x1 .f32) (xs2 : Vec F S2048x1 .f32) (xs3 : Vec F S2048x256 .f32) :
    out0_C_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3
      = k0_pay3 (k0_pay1 (k0_pay10 xs0 x1 x3 xs1) (k0_pay11 xs0 x1 x3 xs1) x2 xs3) (k0_pay12 xs0 x1 x3 xs1 xs2) := by
  unfold out0_C_6
  rw [View.read_writes_eq_canon _ _ _ (cover0_C_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg10.read_unread, harg11.read_unread, harg12.read_unread, harg13.read_unread, View.readCov_unit_zero (S := S2048x256) _ hz2, View.readCov_unit_zero (S := S2048x1) _ hz2, View.ld_unit_zero (S := S2048x256) hz2, View.ld_unit_zero (S := S2048x1) hz2, View.ld_unit_zero (S := S256x256) hz2, View.ld_unit_zero (S := S1x512x256) hz3, View.ld_unit_zero (S := S1x2048x512) hz3, View.ld_unit_zero (S := S1x2048x256) hz3, View.ld_unit_zero (S := S256) hz1]

end Attn.Pieces

end
-- ==== Proof.KernelComps.lean ====
/-
  What the four scratch buffers and the output block hold after the body at a grid point, component by component:
  at a tile's first key block as functions of the point's input blocks alone, at the later blocks as functions of the
  input blocks and of what the point before left.
-/
import proofs.«430789_j24842090840792_3_alg».proof.Proof.KernelPieces
import Idealize.ShloMosaic.PureOps.Ideal

noncomputable section

namespace Attn.Kernel

open Cert.KernelIdeal Cert.KernelIdeal.Gen Idealize.ShloMosaic Idealize.ShloMosaic.TcCoe Idealize.SL.Sem

variable (m : (ℓ : Loc nD τ sig) → Buf (Elt Ideal) ℓ) (c : Dev nD)

/-- The input blocks at point `t`, at their literal shapes. -/
abbrev qblk (t : Fin cfg0.N) : Vec Ideal S1x2048x256 .f32 := iblk m c 0 t
abbrev kblk (t : Fin cfg0.N) : Vec Ideal S1x512x256 .f32 := iblk m c 1 t
abbrev vblk (t : Fin cfg0.N) : Vec Ideal S1x512x256 .f32 := iblk m c 2 t
abbrev mblk (t : Fin cfg0.N) : Vec Ideal S1x2048x512 .f32 := iblk m c 3 t
abbrev wblk (t : Fin cfg0.N) : Vec Ideal S256x256 .f32 := iblk m c 4 t
abbrev bblk (t : Fin cfg0.N) : Vec Ideal S256 .f32 := iblk m c 5 t

/-- What the point before `t` left. -/
abbrev prevAt (t : Fin cfg0.N) := outsAt0 m c (t.val - 1) (Nat.lt_of_le_of_lt (Nat.sub_le _ _) t.isLt)

theorem compA0 (t : Fin cfg0.N) (h0 : t.val % 8 = 0) (h1 : ¬t.val % 8 = 7) :
    (outsAt0 m c t.val t.isLt).2.1 = (k0_pay4 (qblk m c t) (wblk m c t) (bblk m c t)) := by
  rw [outsAt0_A m c t h0 h1]; dsimp only
  exact Pieces.sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (qblk m c t) (kblk m c t) (vblk m c t) (mblk m c t) (wblk m c t) (bblk m c t) ((hcond0_0 t).mpr h0) (fun h => h1 ((hcond0_1 t).mp h))

theorem compA1 (t : Fin cfg0.N) (h0 : t.val % 8 = 0) (h1 : ¬t.val % 8 = 7) :
    (outsAt0 m c t.val t.isLt).2.2.1 = k0_pay2 (k0_pay9 (k0_pay4 (qblk m c t) (wblk m c t) (bblk m c t)) (kblk m c t) (mblk m c t) (k0_pay5 (F := Ideal))) := by
  rw [outsAt0_A m c t h0 h1]; dsimp only
  exact Pieces.sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (qblk m c t) (kblk m c t) (vblk m c t) (mblk m c t) (wblk m c t) (bblk m c t) ((hcond0_0 t).mpr h0) (fun h => h1 ((hcond0_1 t).mp h))

theorem compA2 (t : Fin cfg0.N) (h0 : t.val % 8 = 0) (h1 : ¬t.val % 8 = 7) :
    (outsAt0 m c t.val t.isLt).2.2.2.1 = k0_pay12 (k0_pay4 (qblk m c t) (wblk m c t) (bblk m c t)) (kblk m c t) (mblk m c t) (k0_pay5 (F := Ideal)) (k0_pay6 (F := Ideal)) := by
  rw [outsAt0_A m c t h0 h1]; dsimp only
  exact Pieces.sA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (qblk m c t) (kblk m c t) (vblk m c t) (mblk m c t) (wblk m c t) (bblk m c t) ((hcond0_0 t).mpr h0) (fun h => h1 ((hcond0_1 t).mp h))

theorem compA3 (t : Fin cfg0.N) (h0 : t.val % 8 = 0) (h1 : ¬t.val % 8 = 7) :
    (outsAt0 m c t.val t.isLt).2.2.2.2 = k0_pay1 (k0_pay10 (k0_pay4 (qblk m c t) (wblk m c t) (bblk m c t)) (kblk m c t) (mblk m c t) (k0_pay5 (F := Ideal))) (k0_pay11 (k0_pay4 (qblk m c t) (wblk m c t) (bblk m c t)) (kblk m c t) (mblk m c t) (k0_pay5 (F := Ideal))) (vblk m c t) (k0_pay7 (F := Ideal)) := by
  rw [outsAt0_A m c t h0 h1]; dsimp only
  exact Pieces.sA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (qblk m c t) (kblk m c t) (vblk m c t) (mblk m c t) (wblk m c t) (bblk m c t) ((hcond0_0 t).mpr h0) (fun h => h1 ((hcond0_1 t).mp h))

theorem compB0 (t : Fin cfg0.N) (h0 : ¬t.val % 8 = 0) (h1 : ¬t.val % 8 = 7) :
    (outsAt0 m c t.val t.isLt).2.1 = (prevAt m c t).2.1 := by
  rw [outsAt0_B m c t h0 h1]; dsimp only
  exact Pieces.sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (qblk m c t) (kblk m c t) (vblk m c t) (mblk m c t) (wblk m c t) (bblk m c t) (fun h => h0 ((hcond0_0 t).mp h)) (fun h => h1 ((hcond0_1 t).mp h)) (prevAt m c t).2.1 (prevAt m c t).2.2.1 (prevAt m c t).2.2.2.1 (prevAt m c t).2.2.2.2

theorem compB1 (t : Fin cfg0.N) (h0 : ¬t.val % 8 = 0) (h1 : ¬t.val % 8 = 7) :
    (outsAt0 m c t.val t.isLt).2.2.1 = k0_pay2 (k0_pay9 (prevAt m c t).2.1 (kblk m c t) (mblk m c t) (prevAt m c t).2.2.1) := by
  rw [outsAt0_B m c t h0 h1]; dsimp only
  exact Pieces.sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (qblk m c t) (kblk m c t) (vblk m c t) (mblk m c t) (wblk m c t) (bblk m c t) (fun h => h0 ((hcond0_0 t).mp h)) (fun h => h1 ((hcond0_1 t).mp h)) (prevAt m c t).2.1 (prevAt m c t).2.2.1 (prevAt m c t).2.2.2.1 (prevAt m c t).2.2.2.2

theorem compB2 (t : Fin cfg0.N) (h0 : ¬t.val % 8 = 0) (h1 : ¬t.val % 8 = 7) :
    (outsAt0 m c t.val t.isLt).2.2.2.1 = k0_pay12 (prevAt m c t).2.1 (kblk m c t) (mblk m c t) (prevAt m c t).2.2.1 (prevAt m c t).2.2.2.1 := by
  rw [outsAt0_B m c t h0 h1]; dsimp only
  exact Pieces.sB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (qblk m c t) (kblk m c t) (vblk m c t) (mblk m c t) (wblk m c t) (bblk m c t) (fun h => h0 ((hcond0_0 t).mp h)) (fun h => h1 ((hcond0_1 t).mp h)) (prevAt m c t).2.1 (prevAt m c t).2.2.1 (prevAt m c t).2.2.2.1 (prevAt m c t).2.2.2.2

theorem compB3 (t : Fin cfg0.N) (h0 : ¬t.val % 8 = 0) (h1 : ¬t.val % 8 = 7) :
    (outsAt0 m c t.val t.isLt).2.2.2.2 = k0_pay1 (k0_pay10 (prevAt m c t).2.1 (kblk m c t) (mblk m c t) (prevAt m c t).2.2.1) (k0_pay11 (prevAt m c t).2.1 (kblk m c t) (mblk m c t) (prevAt m c t).2.2.1) (vblk m c t) (prevAt m c t).2.2.2.2 := by
  rw [outsAt0_B m c t h0 h1]; dsimp only
  exact Pieces.sB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (qblk m c t) (kblk m c t) (vblk m c t) (mblk m c t) (wblk m c t) (bblk m c t) (fun h => h0 ((hcond0_0 t).mp h)) (fun h => h1 ((hcond0_1 t).mp h)) (prevAt m c t).2.1 (prevAt m c t).2.2.1 (prevAt m c t).2.2.2.1 (prevAt m c t).2.2.2.2

theorem compC0 (t : Fin cfg0.N) (h0 : ¬t.val % 8 = 0) (h1 : t.val % 8 = 7) :
    (outsAt0 m c t.val t.isLt).2.1 = (prevAt m c t).2.1 := by
  rw [outsAt0_C m c t h0 h1]; dsimp only
  exact Pieces.sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (qblk m c t) (kblk m c t) (vblk m c t) (mblk m c t) (wblk m c t) (bblk m c t) (fun h => h0 ((hcond0_0 t).mp h)) ((hcond0_1 t).mpr h1) (prevAt m c t).2.1 (prevAt m c t).2.2.1 (prevAt m c t).2.2.2.1 (prevAt m c t).2.2.2.2

theorem compC1 (t : Fin cfg0.N) (h0 : ¬t.val % 8 = 0) (h1 : t.val % 8 = 7) :
    (outsAt0 m c t.val t.isLt).2.2.1 = k0_pay2 (k0_pay9 (prevAt m c t).2.1 (kblk m c t) (mblk m c t) (prevAt m c t).2.2.1) := by
  rw [outsAt0_C m c t h0 h1]; dsimp only
  exact Pieces.sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (qblk m c t) (kblk m c t) (vblk m c t) (mblk m c t) (wblk m c t) (bblk m c t) (fun h => h0 ((hcond0_0 t).mp h)) ((hcond0_1 t).mpr h1) (prevAt m c t).2.1 (prevAt m c t).2.2.1 (prevAt m c t).2.2.2.1 (prevAt m c t).2.2.2.2

theorem compC2 (t : Fin cfg0.N) (h0 : ¬t.val % 8 = 0) (h1 : t.val % 8 = 7) :
    (outsAt0 m c t.val t.isLt).2.2.2.1 = k0_pay12 (prevAt m c t).2.1 (kblk m c t) (mblk m c t) (prevAt m c t).2.2.1 (prevAt m c t).2.2.2.1 := by
  rw [outsAt0_C m c t h0 h1]; dsimp only
  exact Pieces.sC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (qblk m c t) (kblk m c t) (vblk m c t) (mblk m c t) (wblk m c t) (bblk m c t) (fun h => h0 ((hcond0_0 t).mp h)) ((hcond0_1 t).mpr h1) (prevAt m c t).2.1 (prevAt m c t).2.2.1 (prevAt m c t).2.2.2.1 (prevAt m c t).2.2.2.2

theorem compC3 (t : Fin cfg0.N) (h0 : ¬t.val % 8 = 0) (h1 : t.val % 8 = 7) :
    (outsAt0 m c t.val t.isLt).2.2.2.2 = k0_pay1 (k0_pay10 (prevAt m c t).2.1 (kblk m c t) (mblk m c t) (prevAt m c t).2.2.1) (k0_pay11 (prevAt m c t).2.1 (kblk m c t) (mblk m c t) (prevAt m c t).2.2.1) (vblk m c t) (prevAt m c t).2.2.2.2 := by
  rw [outsAt0_C m c t h0 h1]; dsimp only
  exact Pieces.sC3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (qblk m c t) (kblk m c t) (vblk m c t) (mblk m c t) (wblk m c t) (bblk m c t) (fun h => h0 ((hcond0_0 t).mp h)) ((hcond0_1 t).mpr h1) (prevAt m c t).2.1 (prevAt m c t).2.2.1 (prevAt m c t).2.2.2.1 (prevAt m c t).2.2.2.2

theorem compC6 (t : Fin cfg0.N) (h0 : ¬t.val % 8 = 0) (h1 : t.val % 8 = 7) :
    (outsAt0 m c t.val t.isLt).1 = k0_pay3 (k0_pay1 (k0_pay10 (prevAt m c t).2.1 (kblk m c t) (mblk m c t) (prevAt m c t).2.2.1) (k0_pay11 (prevAt m c t).2.1 (kblk m c t) (mblk m c t) (prevAt m c t).2.2.1) (vblk m c t) (prevAt m c t).2.2.2.2) (k0_pay12 (prevAt m c t).2.1 (kblk m c t) (mblk m c t) (prevAt m c t).2.2.1 (prevAt m c t).2.2.2.1) := by
  rw [outsAt0_C m c t h0 h1]; dsimp only
  exact Pieces.oC6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (qblk m c t) (kblk m c t) (vblk m c t) (mblk m c t) (wblk m c t) (bblk m c t) (fun h => h0 ((hcond0_0 t).mp h)) ((hcond0_1 t).mpr h1) (prevAt m c t).2.1 (prevAt m c t).2.2.1 (prevAt m c t).2.2.2.1 (prevAt m c t).2.2.2.2

end Attn.Kernel

end
-- ==== Proof.KernelBlocks.lean ====
/-
  The grid's points and what the windows stage at them. Point `t` of the 4 × 2 × 8 grid is batch `t / 16`, query
  tile `(t / 8) % 2` (rows `2048 · tile + r`), key block `t % 8` (keys `512 · block + c`). The query block is rows
  of `q`, the key and value blocks rows of `k` and `v`, the mask block a 2048 × 512 tile of the mask, the weight
  block the transposed weight (the host transposes `W` before the call), the bias block the bias.
-/
import proofs.«430789_j24842090840792_3_alg».proof.Proof.Gen.KernelIdeal.Frame
import proofs.«430789_j24842090840792_3_alg».proof.Proof.Spec
import Idealize.ShloMosaic.Lib.Pipeline.Value
import Idealize.ShloMosaic.Lib.StableHlo.Run

noncomputable section

namespace Attn.Kernel

open Cert.KernelIdeal Cert.KernelIdeal.Gen Idealize.ShloMosaic Idealize.ShloMosaic.TcCoe Idealize.SL.Sem
open Idealize.ShloMosaic.ValueIdx OnlineSoftmax Attn

variable (m : (ℓ : Loc nD τ sig) → Buf (Elt Ideal) ℓ)

theorem lt64 (t : Fin cfg0.N) : t.val < 64 := lt_of_lt_of_eq t.isLt (show cfg0.N = 64 from N_0)

/-- The batch of point `t`. -/
def pb (t : Fin cfg0.N) : Fin 4 := ⟨t.val / 16, by have := lt64 t; omega⟩
/-- The key block of point `t`. -/
def pj (t : Fin cfg0.N) : Fin 8 := ⟨t.val % 8, by omega⟩
/-- Row `r` of point `t`'s query tile, as a row of the array. -/
def prow (t : Fin cfg0.N) (r : Fin 2048) : Fin 4096 := ⟨2048 * ((t.val / 8) % 2) + r.val, by have := r.isLt; omega⟩

/-- The six argument arrays on core `c`. -/
abbrev argQ (c : Dev nD) : Sqkv.Idx → EReal := m ((c : Thread nD τ).loc main_arg0)
abbrev argK (c : Dev nD) : Sqkv.Idx → EReal := m ((c : Thread nD τ).loc main_arg1)
abbrev argV (c : Dev nD) : Sqkv.Idx → EReal := m ((c : Thread nD τ).loc main_arg2)
abbrev argM (c : Dev nD) : Smask.Idx → EReal := m ((c : Thread nD τ).loc main_arg3)
abbrev argW (c : Dev nD) : Sw.Idx → EReal := m ((c : Thread nD τ).loc main_arg4)
abbrev argB (c : Dev nD) : Sb.Idx → EReal := m ((c : Thread nD τ).loc main_arg5)

/-- Where each window's block sits at point `t`, in blocks: decided over the 64 points of the grid. -/
theorem idx0 : ∀ t : Fin cfg0.N, win0_0.index t 0 = t.val / 16 ∧ win0_0.index t 1 = (t.val / 8) % 2 ∧ win0_0.index t 2 = 0 :=
  (by decide +kernel : ∀ t : Fin grid0.N, win0_0.index t 0 = t.val / 16 ∧ win0_0.index t 1 = (t.val / 8) % 2 ∧ win0_0.index t 2 = 0)
theorem idx1 : ∀ t : Fin cfg0.N, win0_1.index t 0 = t.val / 16 ∧ win0_1.index t 1 = t.val % 8 ∧ win0_1.index t 2 = 0 :=
  (by decide +kernel : ∀ t : Fin grid0.N, win0_1.index t 0 = t.val / 16 ∧ win0_1.index t 1 = t.val % 8 ∧ win0_1.index t 2 = 0)
theorem idx2 : ∀ t : Fin cfg0.N, win0_2.index t 0 = t.val / 16 ∧ win0_2.index t 1 = t.val % 8 ∧ win0_2.index t 2 = 0 :=
  (by decide +kernel : ∀ t : Fin grid0.N, win0_2.index t 0 = t.val / 16 ∧ win0_2.index t 1 = t.val % 8 ∧ win0_2.index t 2 = 0)
theorem idx3 : ∀ t : Fin cfg0.N, win0_3.index t 0 = t.val / 16 ∧ win0_3.index t 1 = (t.val / 8) % 2 ∧ win0_3.index t 2 = t.val % 8 :=
  (by decide +kernel : ∀ t : Fin grid0.N, win0_3.index t 0 = t.val / 16 ∧ win0_3.index t 1 = (t.val / 8) % 2 ∧ win0_3.index t 2 = t.val % 8)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 :=
  (by decide +kernel : ∀ t : Fin grid0.N, win0_5.index t 0 = 0)

theorem iblk0_apply (c : Dev nD) (t : Fin cfg0.N) (r : Fin 2048) (h : Fin 256) :
    (iblk m c 0 t : Vec Ideal S1x2048x256 .f32) (ix3 0 r h) = argQ m c (ix3 (pb t) (prow t r) h) := by
  unfold iblk
  rw [View.read_apply]
  show V m c main_arg0 _ = m (c.tc.loc main_arg0) _
  rw [V_main_arg0]
  congr 1
  funext a
  apply Fin.ext
  match a with
  | ⟨0, _⟩ =>
    show win0_0.index t 0 * 1 + 1 * ((ix3 (0 : Fin 1) r h : S1x2048x256.Idx) 0).val = (pb t).val
    rw [(idx0 t).1]; simp [pb, ix3]
  | ⟨1, _⟩ =>
    show win0_0.index t 1 * 2048 + 1 * ((ix3 (0 : Fin 1) r h : S1x2048x256.Idx) 1).val = (prow t r).val
    rw [(idx0 t).2.1]; simp [prow, ix3]; omega
  | ⟨2, _⟩ =>
    show win0_0.index t 2 * 256 + 1 * ((ix3 (0 : Fin 1) r h : S1x2048x256.Idx) 2).val = h.val
    rw [(idx0 t).2.2]; simp [ix3]

theorem iblk1_apply (c : Dev nD) (t : Fin cfg0.N) (cc : Fin 512) (h : Fin 256) :
    (iblk m c 1 t : Vec Ideal S1x512x256 .f32) (ix3 0 cc h) = argK m c (ix3 (pb t) (kix (pj t) cc) h) := by
  unfold iblk
  rw [View.read_apply]
  show V m c main_arg1 _ = m (c.tc.loc main_arg1) _
  rw [V_main_arg1]
  congr 1
  funext a
  apply Fin.ext
  match a with
  | ⟨0, _⟩ =>
    show win0_1.index t 0 * 1 + 1 * ((ix3 (0 : Fin 1) cc h : S1x512x256.Idx) 0).val = (pb t).val
    rw [(idx1 t).1]; simp [pb, ix3]
  | ⟨1, _⟩ =>
    show win0_1.index t 1 * 512 + 1 * ((ix3 (0 : Fin 1) cc h : S1x512x256.Idx) 1).val = (kix (pj t) cc).val
    rw [(idx1 t).2.1]; simp [kix, pj, ix3]; omega
  | ⟨2, _⟩ =>
    show win0_1.index t 2 * 256 + 1 * ((ix3 (0 : Fin 1) cc h : S1x512x256.Idx) 2).val = h.val
    rw [(idx1 t).2.2]; simp [ix3]

theorem iblk2_apply (c : Dev nD) (t : Fin cfg0.N) (cc : Fin 512) (h : Fin 256) :
    (iblk m c 2 t : Vec Ideal S1x512x256 .f32) (ix3 0 cc h) = argV m c (ix3 (pb t) (kix (pj t) cc) h) := by
  unfold iblk
  rw [View.read_apply]
  show V m c main_arg2 _ = m (c.tc.loc main_arg2) _
  rw [V_main_arg2]
  congr 1
  funext a
  apply Fin.ext
  match a with
  | ⟨0, _⟩ =>
    show win0_2.index t 0 * 1 + 1 * ((ix3 (0 : Fin 1) cc h : S1x512x256.Idx) 0).val = (pb t).val
    rw [(idx2 t).1]; simp [pb, ix3]
  | ⟨1, _⟩ =>
    show win0_2.index t 1 * 512 + 1 * ((ix3 (0 : Fin 1) cc h : S1x512x256.Idx) 1).val = (kix (pj t) cc).val
    rw [(idx2 t).2.1]; simp [kix, pj, ix3]; omega
  | ⟨2, _⟩ =>
    show win0_2.index t 2 * 256 + 1 * ((ix3 (0 : Fin 1) cc h : S1x512x256.Idx) 2).val = h.val
    rw [(idx2 t).2.2]; simp [ix3]

theorem iblk3_apply (c : Dev nD) (t : Fin cfg0.N) (r : Fin 2048) (cc : Fin 512) :
    (iblk m c 3 t : Vec Ideal S1x2048x512 .f32) (ix3 0 r cc) = argM m c (ix3 (pb t) (prow t r) (kix (pj t) cc)) := by
  unfold iblk
  rw [View.read_apply]
  show V m c main_arg3 _ = m (c.tc.loc main_arg3) _
  rw [V_main_arg3]
  congr 1
  funext a
  apply Fin.ext
  match a with
  | ⟨0, _⟩ =>
    show win0_3.index t 0 * 1 + 1 * ((ix3 (0 : Fin 1) r cc : S1x2048x512.Idx) 0).val = (pb t).val
    rw [(idx3 t).1]; simp [pb, ix3]
  | ⟨1, _⟩ =>
    show win0_3.index t 1 * 2048 + 1 * ((ix3 (0 : Fin 1) r cc : S1x2048x512.Idx) 1).val = (prow t r).val
    rw [(idx3 t).2.1]; simp [prow, ix3]; omega
  | ⟨2, _⟩ =>
    show win0_3.index t 2 * 512 + 1 * ((ix3 (0 : Fin 1) r cc : S1x2048x512.Idx) 2).val = (kix (pj t) cc).val
    rw [(idx3 t).2.2]; simp [kix, pj, ix3]; omega

theorem iblk4_apply (c : Dev nD) (t : Fin cfg0.N) (h o : Fin 256) :
    (iblk m c 4 t : Vec Ideal S256x256 .f32) (ix2 h o) = argW m c (ix2 o h) := by
  have e : (V m c main_v0 : S256x256.Idx → EReal)
      = transpose S256x256 [1, 0] (m (c.tc.loc main_arg4)) transposes_S256x256_S256x256_1_0 := by
    dsimp only [Gen.V, Gen.hostOps0]; after_results
  unfold iblk
  rw [View.read_apply]
  show (V m c main_v0 : S256x256.Idx → EReal) _ = m (c.tc.loc main_arg4) _
  rw [e]
  refine (transpose_apply _ _ _ _ (ix2 o h) ?_).trans rfl
  intro b
  match b with
  | ⟨0, _⟩ =>
    show h.val = win0_4.index t 0 * 256 + 1 * ((ix2 h o : S256x256.Idx) 0).val
    rw [(idx4 t).1]; simp [ix2]
  | ⟨1, _⟩ =>
    show o.val = win0_4.index t 1 * 256 + 1 * ((ix2 h o : S256x256.Idx) 1).val
    rw [(idx4 t).2]; simp [ix2]

theorem iblk5_apply (c : Dev nD) (t : Fin cfg0.N) (o : Fin 256) :
    (iblk m c 5 t : Vec Ideal S256 .f32) (ix1 o) = argB m c (ix1 o) := by
  unfold iblk
  rw [View.read_apply]
  show V m c main_arg5 _ = m (c.tc.loc main_arg5) _
  rw [V_main_arg5]
  congr 1
  funext a
  apply Fin.ext
  match a with
  | ⟨0, _⟩ =>
    show win0_5.index t 0 * 256 + 1 * ((ix1 o : S256.Idx) 0).val = o.val
    rw [idx5 t]; simp [ix1]

/-- Consecutive points of one tile: same batch, same rows, the next key block. -/
theorem pb_pred (t : Fin cfg0.N) (h0 : ¬t.val % 8 = 0) (hlt : t.val - 1 < cfg0.N) : pb ⟨t.val - 1, hlt⟩ = pb t := by
  apply Fin.ext
  show (t.val - 1) / 16 = t.val / 16
  have := lt64 t
  omega

theorem prow_pred (t : Fin cfg0.N) (h0 : ¬t.val % 8 = 0) (hlt : t.val - 1 < cfg0.N) (r : Fin 2048) :
    prow ⟨t.val - 1, hlt⟩ r = prow t r := by
  apply Fin.ext
  show 2048 * (((t.val - 1) / 8) % 2) + r.val = 2048 * ((t.val / 8) % 2) + r.val
  have := lt64 t
  omega

theorem pj_pred (t : Fin cfg0.N) (h0 : ¬t.val % 8 = 0) (hlt : t.val - 1 < cfg0.N) :
    (pj ⟨t.val - 1, hlt⟩).val + 1 = (pj t).val := by
  show (t.val - 1) % 8 + 1 = t.val % 8
  omega

end Attn.Kernel

end
-- ==== Proof.KernelPay.lean ====
/-
  The kernel body's arithmetic, one stored or carried value at a time, read at an index on the extended
  reals: the score block, the new running maximum, the exponentials, the rescaling factor, the new running
  sum and weighted sum, the final quotient, the projected query, and the three reset values.
-/
import proofs.«430789_j24842090840792_3_alg».proof.Proof.Gen.KernelIdeal.Skeleton
import proofs.«430789_j24842090840792_3_alg».proof.Proof.Spec
import Idealize.ShloMosaic.Lib.Pipeline.Value
import Idealize.ShloMosaic.Lib.ValueLayout
import Idealize.ShloMosaic.PureOps.Ideal.Laws

noncomputable section

namespace Attn.Pay

open Cert.KernelIdeal Cert.KernelIdeal.Gen Idealize.ShloMosaic Idealize.ShloMosaic.ValueIdx OnlineSoftmax Attn

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a `[2048, 512]` block at row `r`: the sum over the row. -/
theorem rowSum_apply (src : FVec Ideal S2048x512 .f32) (r : Fin 2048) :
    multiReduction (F := Ideal) .add [1] S2048 src 0x00000000#32 reduces_S2048x512_S2048 (.inl rfl) rfl (ix1 r)
      = ∑ c : Fin 512, src (ix2 r c) := by
  refine (Ideal.multiReduction_add_single src _ reduces_S2048x512_S2048 _ _ (ix1 r)).trans ?_
  refine Finset.sum_congr rfl fun c _ => congrArg src (funext fun a => Fin.ext ?_)
  match a with
  | ⟨0, _⟩ => rfl
  | ⟨1, _⟩ => rfl

/-- A lane maximum of a `[2048, 512]` block at row `r`: the row's maximum folded from `-∞`. -/
theorem rowMax_apply (src : FVec Ideal S2048x512 .f32) (r : Fin 2048) :
    multiReduction (F := Ideal) .maximumf [1] S2048 src 0xFF800000#32 reduces_S2048x512_S2048 (.inl rfl) rfl (ix1 r)
      = (Finset.univ : Finset (Fin 512)).fold max (⊥ : EReal) (fun c => src (ix2 r c)) := by
  refine (Ideal.multiReduction_maximumf_single src _ reduces_S2048x512_S2048 _ _ (ix1 r)).trans ?_
  have hb : FloatOps.ofBits (F := Ideal) .f32 0xFF800000#32 = (⊥ : EReal) := by
    show Ideal.ofBits .f32 0xFF800000#32 = ⊥
    simp [Ideal.ofBits, Ideal.ieee]
  rw [hb]
  have hf : (src ∘ reduces_S2048x512_S2048.lift (ix1 r)) = fun c : Fin 512 => src (ix2 r c) :=
    funext fun c => congrArg src (funext fun a => Fin.ext (by match a with | ⟨0, _⟩ => rfl | ⟨1, _⟩ => rfl))
  exact congrArg (fun f => Finset.fold max (⊥ : EReal) f (Finset.univ : Finset (Fin 512))) hf

theorem lhs_dot_S2048x256_S256x256_S2048x256_1_0_0_1_n_n_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_dot_S2048x256_S256x256_S2048x256_1_0_0_1_n_n_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_dot_S2048x256_S256x256_S2048x256_1_0_0_1_n_n_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_dot_S2048x256_S256x256_S2048x256_1_0_0_1_n_n_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The product into a zero accumulator, read at `(r, c)`: the sum over the one contracted axis. -/
theorem matmul_proj_apply (L : FVec Ideal S2048x256 .bf16) (R : FVec Ideal S256x256 .bf16) (r : Fin 2048) (c : Fin 256) :
    matmul dot_S2048x256_S256x256_S2048x256_1_0_0_1_n_n none L R (constant S2048x256 .f32 0x00000000#32) (ix2 r c)
      = ∑ k : Fin 256, L (ix2 r k) * R (ix2 k c) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r c) ((contrEquiv1 dot_S2048x256_S256x256_S2048x256_1_0_0_1_n_n 256 rfl rfl).symm k) = ix2 r k := funext fun a => Fin.ext (by
    match a with
    | ⟨0, _⟩ => exact lhs_dot_S2048x256_S256x256_S2048x256_1_0_0_1_n_n_0 _ _
    | ⟨1, _⟩ => exact (lhs_dot_S2048x256_S256x256_S2048x256_1_0_0_1_n_n_1 _ _).trans hk)
  have er : dot_S2048x256_S256x256_S2048x256_1_0_0_1_n_n.rhsIdx (ix2 r c) ((contrEquiv1 dot_S2048x256_S256x256_S2048x256_1_0_0_1_n_n 256 rfl rfl).symm k) = ix2 k c := funext fun a => Fin.ext (by
    match a with
    | ⟨0, _⟩ => exact (rhs_dot_S2048x256_S256x256_S2048x256_1_0_0_1_n_n_0 _ _).trans hk
    | ⟨1, _⟩ => exact rhs_dot_S2048x256_S256x256_S2048x256_1_0_0_1_n_n_1 _ _)
  rw [el, er]

theorem lhs_dot_S2048x256_S512x256_S2048x512_1_1_0_0_n_n_0 (i : S2048x512.Idx) (q : dot_S2048x256_S512x256_S2048x512_1_1_0_0_n_n.contr.Idx) :
    (dot_S2048x256_S512x256_S2048x512_1_1_0_0_n_n.lhsIdx i q 0).val = (i 0).val := by
  unfold DotDims.lhsIdx
  rw [dif_neg (show ¬(0 : Fin S2048x256.rank) ∈ dot_S2048x256_S512x256_S2048x512_1_1_0_0_n_n.lhsBatch by decide), dif_pos (show (0 : Fin S2048x256.rank) ∈ dot_S2048x256_S512x256_S2048x512_1_1_0_0_n_n.lhsNonContracting by decide)]
  rfl
theorem lhs_dot_S2048x256_S512x256_S2048x512_1_1_0_0_n_n_1 (i : S2048x512.Idx) (q : dot_S2048x256_S512x256_S2048x512_1_1_0_0_n_n.contr.Idx) :
    (dot_S2048x256_S512x256_S2048x512_1_1_0_0_n_n.lhsIdx i q 1).val = (q ⟨0, by decide⟩).val :=
  dot_S2048x256_S512x256_S2048x512_1_1_0_0_n_n.lhsIdx_val_of_single rfl i q
theorem rhs_dot_S2048x256_S512x256_S2048x512_1_1_0_0_n_n_0 (i : S2048x512.Idx) (q : dot_S2048x256_S512x256_S2048x512_1_1_0_0_n_n.contr.Idx) :
    (dot_S2048x256_S512x256_S2048x512_1_1_0_0_n_n.rhsIdx i q 0).val = (i 1).val := by
  unfold DotDims.rhsIdx
  rw [dif_neg (show ¬(0 : Fin S512x256.rank) ∈ dot_S2048x256_S512x256_S2048x512_1_1_0_0_n_n.rhsBatch by decide), dif_pos (show (0 : Fin S512x256.rank) ∈ dot_S2048x256_S512x256_S2048x512_1_1_0_0_n_n.rhsNonContracting by decide)]
  rfl
theorem rhs_dot_S2048x256_S512x256_S2048x512_1_1_0_0_n_n_1 (i : S2048x512.Idx) (q : dot_S2048x256_S512x256_S2048x512_1_1_0_0_n_n.contr.Idx) :
    (dot_S2048x256_S512x256_S2048x512_1_1_0_0_n_n.rhsIdx i q 1).val = (q ⟨0, by decide⟩).val :=
  dot_S2048x256_S512x256_S2048x512_1_1_0_0_n_n.rhsIdx_val_of_single rfl i q

/-- The product into a zero accumulator, read at `(r, c)`: the sum over the one contracted axis. -/
theorem matmul_score_apply (L : FVec Ideal S2048x256 .bf16) (R : FVec Ideal S512x256 .bf16) (r : Fin 2048) (c : Fin 512) :
    matmul dot_S2048x256_S512x256_S2048x512_1_1_0_0_n_n none L R (constant S2048x512 .f32 0x00000000#32) (ix2 r c)
      = ∑ k : Fin 256, L (ix2 r k) * R (ix2 c k) := by
  simp only [matmul]
  rw [Ideal.matmul_constant_zero_apply, ← Equiv.sum_comp (contrEquiv1 dot_S2048x256_S512x256_S2048x512_1_1_0_0_n_n 256 rfl rfl).symm]
  refine Finset.sum_congr rfl fun k _ => ?_
  have hk := contrEquiv1_symm_val dot_S2048x256_S512x256_S2048x512_1_1_0_0_n_n 256 rfl rfl k
  have el : dot_S2048x256_S512x256_S2048x512_1_1_0_0_n_n.lhsIdx (ix2 r c) ((contrEquiv1 dot_S2048x256_S512x256_S2048x512_1_1_0_0_n_n 256 rfl rfl).symm k) = ix2 r k := funext fun a => Fin.ext (by
    match a with
    | ⟨0, _⟩ => exact lhs_dot_S2048x256_S512x256_S2048x512_1_1_0_0_n_n_0 _ _
    | ⟨1, _⟩ => exact (lhs_dot_S2048x256_S512x256_S2048x512_1_1_0_0_n_n_1 _ _).trans hk)
  have er : dot_S2048x256_S512x256_S2048x512_1_1_0_0_n_n.rhsIdx (ix2 r c) ((contrEquiv1 dot_S2048x256_S512x256_S2048x512_1_1_0_0_n_n 256 rfl rfl).symm k) = ix2 c k := funext fun a => Fin.ext (by
    match a with
    | ⟨0, _⟩ => exact rhs_dot_S2048x256_S512x256_S2048x512_1_1_0_0_n_n_0 _ _
    | ⟨1, _⟩ => exact (rhs_dot_S2048x256_S512x256_S2048x512_1_1_0_0_n_n_1 _ _).trans hk)
  rw [el, er]

theorem lhs_dot_S2048x512_S512x256_S2048x256_1_0_0_1_n_n_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_dot_S2048x512_S512x256_S2048x256_1_0_0_1_n_n_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_dot_S2048x512_S512x256_S2048x256_1_0_0_1_n_n_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_dot_S2048x512_S512x256_S2048x256_1_0_0_1_n_n_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The product into a zero accumulator, read at `(r, c)`: the sum over the one contracted axis. -/
theorem matmul_acc_apply (L : FVec Ideal S2048x512 .bf16) (R : FVec Ideal S512x256 .bf16) (r : Fin 2048) (c : Fin 256) :
    matmul dot_S2048x512_S512x256_S2048x256_1_0_0_1_n_n none L R (constant S2048x256 .f32 0x00000000#32) (ix2 r c)
      = ∑ k : Fin 512, L (ix2 r k) * R (ix2 k c) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 r c) ((contrEquiv1 dot_S2048x512_S512x256_S2048x256_1_0_0_1_n_n 512 rfl rfl).symm k) = ix2 r k := funext fun a => Fin.ext (by
    match a with
    | ⟨0, _⟩ => exact lhs_dot_S2048x512_S512x256_S2048x256_1_0_0_1_n_n_0 _ _
    | ⟨1, _⟩ => exact (lhs_dot_S2048x512_S512x256_S2048x256_1_0_0_1_n_n_1 _ _).trans hk)
  have er : dot_S2048x512_S512x256_S2048x256_1_0_0_1_n_n.rhsIdx (ix2 r c) ((contrEquiv1 dot_S2048x512_S512x256_S2048x256_1_0_0_1_n_n 512 rfl rfl).symm k) = ix2 k c := funext fun a => Fin.ext (by
    match a with
    | ⟨0, _⟩ => exact (rhs_dot_S2048x512_S512x256_S2048x256_1_0_0_1_n_n_0 _ _).trans hk
    | ⟨1, _⟩ => exact rhs_dot_S2048x512_S512x256_S2048x256_1_0_0_1_n_n_1 _ _)
  rw [el, er]

/-- The score block: `qp · kᵀ` minus the mask term. -/
theorem pay8_apply (qp : Vec Ideal S2048x256 .f32) (kb : Vec Ideal S1x512x256 .f32) (mb : Vec Ideal S1x2048x512 .f32)
    (r : Fin 2048) (c : Fin 512) :
    k0_pay8 (F := Ideal) qp kb mb (ix2 r c)
      = (∑ h : Fin 256, qp (ix2 r h) * kb (ix3 0 c h)) - big * (one - mb (ix3 0 r c)) := by
  unfold k0_pay8
  refine (subf_apply _ _ _).trans ?_
  refine congrArg₂ (· - ·) ?_ ?_
  · refine (matmul_score_apply _ _ r c).trans ?_
    refine Finset.sum_congr rfl fun h _ => ?_
    refine congrArg₂ (· * ·) rfl ?_
    exact shapeCast_1ab_ab_apply kb _ c h
  · refine (mulf_apply _ _ _).trans ?_
    refine congrArg₂ (· * ·) rfl ?_
    refine (subf_apply _ _ _).trans ?_
    refine congrArg₂ (· - ·) rfl ?_
    exact shapeCast_1ab_ab_apply mb _ r c

/-- The new running maximum: the old one against the block's row maximum folded from `-∞`. -/
theorem pay9_apply (qp : Vec Ideal S2048x256 .f32) (kb : Vec Ideal S1x512x256 .f32) (mb : Vec Ideal S1x2048x512 .f32)
    (mp : Vec Ideal S2048x1 .f32) (r : Fin 2048) :
    k0_pay9 (F := Ideal) qp kb mb mp (ix2 r 0)
      = max (mp (ix2 r 0)) ((Finset.univ : Finset (Fin 512)).fold max (⊥ : EReal) (fun c => k0_pay8 (F := Ideal) qp kb mb (ix2 r c))) := by
  unfold k0_pay9
  refine (maximumf_apply _ _ _).trans ?_
  refine congrArg (max (mp (ix2 r 0))) ?_
  refine (shapeCast_a_a1_apply _ _ r 0).trans ?_
  exact rowMax_apply _ r

/-- The exponentials of the scores under the new maximum. -/
theorem pay10_apply (qp : Vec Ideal S2048x256 .f32) (kb : Vec Ideal S1x512x256 .f32) (mb : Vec Ideal S1x2048x512 .f32)
    (mp : Vec Ideal S2048x1 .f32) (r : Fin 2048) (c : Fin 512) :
    k0_pay10 (F := Ideal) qp kb mb mp (ix2 r c)
      = Ideal.exp (k0_pay8 (F := Ideal) qp kb mb (ix2 r c) - k0_pay9 (F := Ideal) qp kb mb mp (ix2 r 0)) := by
  unfold k0_pay10
  show Ideal.exp (k0_pay8 (F := Ideal) qp kb mb (ix2 r c)
      - broadcastTo S2048x512 (k0_pay9 (F := Ideal) qp kb mb mp) broadcasts_S2048x1_S2048x512 (ix2 r c)) = _
  rw [broadcastTo_a1_ab_apply]

/-- The rescaling factor from the old maximum to the new. -/
theorem pay11_apply (qp : Vec Ideal S2048x256 .f32) (kb : Vec Ideal S1x512x256 .f32) (mb : Vec Ideal S1x2048x512 .f32)
    (mp : Vec Ideal S2048x1 .f32) (r : Fin 2048) :
    k0_pay11 (F := Ideal) qp kb mb mp (ix2 r 0)
      = Ideal.exp (mp (ix2 r 0) - k0_pay9 (F := Ideal) qp kb mb mp (ix2 r 0)) := by
  rfl

/-- The new running sum. -/
theorem pay12_apply (qp : Vec Ideal S2048x256 .f32) (kb : Vec Ideal S1x512x256 .f32) (mb : Vec Ideal S1x2048x512 .f32)
    (mp lp : Vec Ideal S2048x1 .f32) (r : Fin 2048) :
    k0_pay12 (F := Ideal) qp kb mb mp lp (ix2 r 0)
      = k0_pay11 (F := Ideal) qp kb mb mp (ix2 r 0) * lp (ix2 r 0) + ∑ c : Fin 512, k0_pay10 (F := Ideal) qp kb mb mp (ix2 r c) := by
  unfold k0_pay12
  rw [shapeCast_self]
  refine (addf_apply _ _ _).trans ?_
  refine congrArg₂ (· + ·) (mulf_apply _ _ _) ?_
  refine (shapeCast_a_a1_apply _ _ r 0).trans ?_
  exact rowSum_apply _ r

/-- The new running weighted sum. -/
theorem pay1_apply (p : FVec Ideal S2048x512 .f32) (al : FVec Ideal S2048x1 .f32) (vb : Vec Ideal S1x512x256 .f32)
    (ap : Vec Ideal S2048x256 .f32) (r : Fin 2048) (h : Fin 256) :
    k0_pay1 (F := Ideal) p al vb ap (ix2 r h)
      = al (ix2 r 0) * ap (ix2 r h) + ∑ c : Fin 512, p (ix2 r c) * vb (ix3 0 c h) := by
  unfold k0_pay1
  rw [shapeCast_self]
  refine (addf_apply _ _ _).trans ?_
  refine congrArg₂ (· + ·) ?_ ?_
  · refine (mulf_apply _ _ _).trans ?_
    refine congrArg₂ (· * ·) ?_ rfl
    exact broadcastTo_a1_ab_apply al _ r h
  · refine (matmul_acc_apply _ _ r h).trans ?_
    refine Finset.sum_congr rfl fun c _ => ?_
    refine congrArg₂ (· * ·) rfl ?_
    exact shapeCast_1ab_ab_apply vb _ c h

/-- The stored maximum is the value itself. -/
theorem pay2_apply (mc : FVec Ideal S2048x1 .f32) (j : S2048x1.Idx) : k0_pay2 (F := Ideal) mc j = mc j := by
  unfold k0_pay2
  rw [shapeCast_self]

/-- The final quotient. -/
theorem pay3_apply (acc : Vec Ideal S2048x256 .f32) (l : Vec Ideal S2048x1 .f32) (r : Fin 2048) (h : Fin 256) :
    k0_pay3 (F := Ideal) acc l (ix3 0 r h) = Ideal.div (acc (ix2 r h)) (l (ix2 r 0)) := by
  unfold k0_pay3
  refine (shapeCast_ab_1ab_apply _ _ 0 r h).trans ?_
  show Ideal.div (acc (ix2 r h)) (broadcastTo S2048x256 l broadcasts_S2048x1_S2048x256 (ix2 r h)) = _
  rw [broadcastTo_a1_ab_apply]

/-- The projected query block: `q · Wᵀ + b` with `wt` the transposed weight. -/
theorem pay4_apply (qb : Vec Ideal S1x2048x256 .f32) (wt : Vec Ideal S256x256 .f32) (bb : Vec Ideal S256 .f32)
    (r : Fin 2048) (o : Fin 256) :
    k0_pay4 (F := Ideal) qb wt bb (ix2 r o) = (∑ h : Fin 256, qb (ix3 0 r h) * wt (ix2 h o)) + bb (ix1 o) := by
  unfold k0_pay4
  simp only [shapeCast_self]
  refine (addf_apply _ _ _).trans ?_
  refine congrArg₂ (· + ·) ?_ ?_
  · refine (matmul_proj_apply _ _ r o).trans ?_
    refine Finset.sum_congr rfl fun h _ => ?_
    refine congrArg₂ (· * ·) ?_ rfl
    exact shapeCast_1ab_ab_apply qb _ r h
  · refine (broadcastTo_1b_ab_apply _ _ r o).trans ?_
    exact shapeCast_a_1a_apply bb _ 0 o

/-- The maximum's reset value is `-∞`. -/
theorem pay5_apply (j : S2048x1.Idx) : k0_pay5 (F := Ideal) j = (⊥ : EReal) := by
  unfold k0_pay5
  rw [shapeCast_self]
  show Ideal.ofBits .f32 0xFF800000#32 = ⊥
  simp [Ideal.ofBits, Ideal.ieee]

/-- The sum's reset value is `0`. -/
theorem pay6_apply (j : S2048x1.Idx) : k0_pay6 (F := Ideal) j = (0 : EReal) := by
  unfold k0_pay6
  rw [shapeCast_self]
  show Ideal.ofBits .f32 0x00000000#32 = 0
  exact Ideal.ofBits_zero_f32

/-- The weighted sum's reset value is `0`. -/
theorem pay7_apply (j : S2048x256.Idx) : k0_pay7 (F := Ideal) j = (0 : EReal) := by
  unfold k0_pay7
  rw [shapeCast_self]
  show Ideal.ofBits .f32 0x00000000#32 = 0
  exact Ideal.ofBits_zero_f32

end Attn.Pay

end
-- ==== Proof.KernelStep.lean ====
/-
  One key block's update of a query row's running state, joining the body's arithmetic (KernelPay.lean) with the
  arithmetic of the running sums (OnlineSoftmax.lean). A row's state is its shift `μ` (the running maximum), its sum
  `exp (-μ) · Z` and its weighted sums `exp (-μ) · N h`, with `Z`, `N h` the unshifted sums over the keys seen so far.
  Given the block's scores `s c` (real numbers) and value rows (real entries) the update leaves a new real shift `μ'`,
  `exp (-μ') · (Z + ∑ c, exp (s c))` and `exp (-μ') · (N h + ∑ c, exp (s c) · v c h)`; from the reset values
  (`-∞`, `0`, `0`) it leaves the block's own sums. The last block's quotient is `N h / Z`.
-/
import proofs.«430789_j24842090840792_3_alg».proof.Proof.KernelPay

noncomputable section

namespace Attn.Step

open Cert.KernelIdeal Cert.KernelIdeal.Gen Idealize.ShloMosaic Idealize.ShloMosaic.ValueIdx OnlineSoftmax Attn Attn.Pay

variable (qp : Vec Ideal S2048x256 .f32) (kb : Vec Ideal S1x512x256 .f32) (mb : Vec Ideal S1x2048x512 .f32)
  (vb : Vec Ideal S1x512x256 .f32)

/-- A further key block, over a real running state. -/
theorem next (mp lp : Vec Ideal S2048x1 .f32) (ap : Vec Ideal S2048x256 .f32) (r : Fin 2048)
    (s : Fin 512 → EReal) (hs : ∀ c, k0_pay8 (F := Ideal) qp kb mb (ix2 r c) = s c) (hsr : ∀ c, IsReal (s c))
    (hvr : ∀ (c : Fin 512) (h : Fin 256), IsReal (vb (ix3 0 c h)))
    (μ Z : ℝ) (N : Fin 256 → ℝ)
    (hm : mp (ix2 r 0) = (μ : EReal)) (hl : lp (ix2 r 0) = ((Real.exp (-μ) * Z : ℝ) : EReal))
    (ha : ∀ h : Fin 256, ap (ix2 r h) = ((Real.exp (-μ) * N h : ℝ) : EReal)) :
    ∃ μ' : ℝ, k0_pay2 (F := Ideal) (k0_pay9 qp kb mb mp) (ix2 r 0) = (μ' : EReal)
      ∧ k0_pay12 (F := Ideal) qp kb mb mp lp (ix2 r 0)
          = ((Real.exp (-μ') * (Z + ∑ c : Fin 512, Real.exp (s c).toReal) : ℝ) : EReal)
      ∧ ∀ h : Fin 256, k0_pay1 (F := Ideal) (k0_pay10 qp kb mb mp) (k0_pay11 qp kb mb mp) vb ap (ix2 r h)
          = ((Real.exp (-μ') * (N h + ∑ c : Fin 512, Real.exp (s c).toReal * (vb (ix3 0 c h)).toReal) : ℝ) : EReal) := by
  have h9 : k0_pay9 (F := Ideal) qp kb mb mp (ix2 r 0)
      = max (μ : EReal) ((Finset.univ : Finset (Fin 512)).fold max (⊥ : EReal) s) := by
    rw [pay9_apply, hm]; simp only [hs]
  obtain ⟨μ', hμ'⟩ : IsReal (k0_pay9 (F := Ideal) qp kb mb mp (ix2 r 0)) := by
    rw [h9]; exact max_isReal (isReal_coe μ) (fold_max_isReal s hsr)
  refine ⟨μ', by rw [pay2_apply]; exact hμ', ?_, fun h => ?_⟩
  · rw [pay12_apply, pay11_apply, hm, hl, hμ']
    simp only [pay10_apply, hs, hμ']
    exact next_sum s hsr μ μ' Z
  · rw [pay1_apply, pay11_apply, hm, ha h, hμ']
    simp only [pay10_apply, hs, hμ']
    exact next_wsum s (fun c => vb (ix3 0 c h)) hsr (fun c => hvr c h) μ μ' (N h)

/-- A tile's first key block, over the reset values. -/
theorem first (r : Fin 2048)
    (s : Fin 512 → EReal) (hs : ∀ c, k0_pay8 (F := Ideal) qp kb mb (ix2 r c) = s c) (hsr : ∀ c, IsReal (s c))
    (hvr : ∀ (c : Fin 512) (h : Fin 256), IsReal (vb (ix3 0 c h))) :
    ∃ μ' : ℝ, k0_pay2 (F := Ideal) (k0_pay9 qp kb mb (k0_pay5 (F := Ideal))) (ix2 r 0) = (μ' : EReal)
      ∧ k0_pay12 (F := Ideal) qp kb mb (k0_pay5 (F := Ideal)) (k0_pay6 (F := Ideal)) (ix2 r 0)
          = ((Real.exp (-μ') * ∑ c : Fin 512, Real.exp (s c).toReal : ℝ) : EReal)
      ∧ ∀ h : Fin 256, k0_pay1 (F := Ideal) (k0_pay10 qp kb mb (k0_pay5 (F := Ideal))) (k0_pay11 qp kb mb (k0_pay5 (F := Ideal))) vb (k0_pay7 (F := Ideal)) (ix2 r h)
          = ((Real.exp (-μ') * ∑ c : Fin 512, Real.exp (s c).toReal * (vb (ix3 0 c h)).toReal : ℝ) : EReal) := by
  have h9 : k0_pay9 (F := Ideal) qp kb mb (k0_pay5 (F := Ideal)) (ix2 r 0)
      = max (⊥ : EReal) ((Finset.univ : Finset (Fin 512)).fold max (⊥ : EReal) s) := by
    rw [pay9_apply, pay5_apply]; simp only [hs]
  obtain ⟨μ', hμ'⟩ : IsReal (k0_pay9 (F := Ideal) qp kb mb (k0_pay5 (F := Ideal)) (ix2 r 0)) := by
    rw [h9]; exact max_bot_isReal (fold_max_isReal s hsr)
  refine ⟨μ', by rw [pay2_apply]; exact hμ', ?_, fun h => ?_⟩
  · rw [pay12_apply, pay11_apply, pay5_apply, pay6_apply, hμ']
    simp only [pay10_apply, hs, hμ']
    exact first_sum s hsr μ'
  · rw [pay1_apply, pay11_apply, pay5_apply, pay7_apply, hμ']
    simp only [pay10_apply, hs, hμ']
    exact first_wsum s (fun c => vb (ix3 0 c h)) hsr (fun c => hvr c h) μ'

/-- The last block's quotient of the weighted sum by the sum. -/
theorem quotient (acc : Vec Ideal S2048x256 .f32) (l : Vec Ideal S2048x1 .f32) (r : Fin 2048) (h : Fin 256)
    (μ N Z : ℝ) (hZ : 0 < Z) (hl : l (ix2 r 0) = ((Real.exp (-μ) * Z : ℝ) : EReal))
    (ha : acc (ix2 r h) = ((Real.exp (-μ) * N : ℝ) : EReal)) :
    k0_pay3 (F := Ideal) acc l (ix3 0 r h) = ((N / Z : ℝ) : EReal) := by
  rw [pay3_apply, hl, ha]
  exact final_div μ N Z hZ

end Attn.Step

end
-- ==== Proof.KernelInv.lean ====
/-
  The running state after every grid point, by induction on the point.

  After the body at point `t` (batch `pb t`, key block `pj t`) the first scratch holds the tile's projected query
  and, for every row `r` of the tile, there is a real shift `μ` with the second scratch at `μ`, the third at
  `exp (-μ) · Z` and the fourth at `exp (-μ) · N h`, where `Z` and `N h` are the sums of `exp (score)` and of
  `exp (score) · v` over the keys of the blocks `0 … pj t`. At a tile's first block this comes from the reset values,
  at a later block from the block before (same batch, same rows, next block). At the last block the stored quotient
  is `N h / Z` over all 4096 keys: the weighted average `G`.
-/
import proofs.«430789_j24842090840792_3_alg».proof.Proof.KernelComps
import proofs.«430789_j24842090840792_3_alg».proof.Proof.KernelBlocks
import proofs.«430789_j24842090840792_3_alg».proof.Proof.KernelStep

noncomputable section

namespace Attn.Kernel

open Cert.KernelIdeal Cert.KernelIdeal.Gen Idealize.ShloMosaic Idealize.ShloMosaic.TcCoe Idealize.SL.Sem
open Idealize.ShloMosaic.ValueIdx OnlineSoftmax Attn

variable (m : (ℓ : Loc nD τ sig) → Buf (Elt Ideal) ℓ) (c : Dev nD)

/-! ## The blocks, over their literal shapes -/

theorem qblk_apply (t : Fin cfg0.N) (r : Fin 2048) (h : Fin 256) :
    qblk m c t (ix3 0 r h) = argQ m c (ix3 (pb t) (prow t r) h) := iblk0_apply m c t r h
theorem kblk_apply (t : Fin cfg0.N) (cc : Fin 512) (h : Fin 256) :
    kblk m c t (ix3 0 cc h) = argK m c (ix3 (pb t) (kix (pj t) cc) h) := iblk1_apply m c t cc h
theorem vblk_apply (t : Fin cfg0.N) (cc : Fin 512) (h : Fin 256) :
    vblk m c t (ix3 0 cc h) = argV m c (ix3 (pb t) (kix (pj t) cc) h) := iblk2_apply m c t cc h
theorem mblk_apply (t : Fin cfg0.N) (r : Fin 2048) (cc : Fin 512) :
    mblk m c t (ix3 0 r cc) = argM m c (ix3 (pb t) (prow t r) (kix (pj t) cc)) := iblk3_apply m c t r cc
theorem wblk_apply (t : Fin cfg0.N) (h o : Fin 256) :
    wblk m c t (ix2 h o) = argW m c (ix2 o h) := iblk4_apply m c t h o
theorem bblk_apply (t : Fin cfg0.N) (o : Fin 256) :
    bblk m c t (ix1 o) = argB m c (ix1 o) := iblk5_apply m c t o

/-! ## Scores and the unshifted block sums -/

/-- The score of row `n` of batch `bi` against key `j`. -/
abbrev sc (bi : Fin 4) (n j : Fin 4096) : EReal := score (argQ m c) (argK m c) (argM m c) (argW m c) (argB m c) bi n j

/-- The sum of `exp (score)` over the first `J` key blocks. -/
def Zp (bi : Fin 4) (n : Fin 4096) (J : ℕ) : ℝ := partialBlocks (fun j => Real.exp (sc m c bi n j).toReal) J

/-- The sum of `exp (score) · v` over the first `J` key blocks. -/
def Np (bi : Fin 4) (n : Fin 4096) (h : Fin 256) (J : ℕ) : ℝ :=
  partialBlocks (fun j => Real.exp (sc m c bi n j).toReal * (argV m c (ix3 bi j h)).toReal) J

theorem Zp_succ (bi : Fin 4) (n : Fin 4096) (j : Fin 8) :
    Zp m c bi n (j.val + 1) = Zp m c bi n j.val + ∑ cc : Fin 512, Real.exp (sc m c bi n (kix j cc)).toReal :=
  partialBlocks_succ _ j

theorem Np_succ (bi : Fin 4) (n : Fin 4096) (h : Fin 256) (j : Fin 8) :
    Np m c bi n h (j.val + 1) = Np m c bi n h j.val
      + ∑ cc : Fin 512, Real.exp (sc m c bi n (kix j cc)).toReal * (argV m c (ix3 bi (kix j cc) h)).toReal :=
  partialBlocks_succ _ j

/-- The score block at a point whose projected query is known. -/
theorem score_block (t : Fin cfg0.N) (qp : Vec Ideal S2048x256 .f32) (r : Fin 2048)
    (hqp : ∀ o : Fin 256, qp (ix2 r o) = proj (argQ m c) (argW m c) (argB m c) (pb t) (prow t r) o) (cc : Fin 512) :
    k0_pay8 (F := Ideal) qp (kblk m c t) (mblk m c t) (ix2 r cc) = sc m c (pb t) (prow t r) (kix (pj t) cc) := by
  rw [Pay.pay8_apply]
  simp only [hqp, kblk_apply, mblk_apply]
  rfl

/-! ## The invariant -/

/-- The state after the body at point `t`. -/
structure Inv (t : Fin cfg0.N) : Prop where
  qp : ∀ (r : Fin 2048) (o : Fin 256),
    (outsAt0 m c t.val t.isLt).2.1 (ix2 r o) = proj (argQ m c) (argW m c) (argB m c) (pb t) (prow t r) o
  st : ∀ r : Fin 2048, ∃ μ : ℝ, (outsAt0 m c t.val t.isLt).2.2.1 (ix2 r 0) = (μ : EReal)
    ∧ (outsAt0 m c t.val t.isLt).2.2.2.1 (ix2 r 0)
        = ((Real.exp (-μ) * Zp m c (pb t) (prow t r) ((pj t).val + 1) : ℝ) : EReal)
    ∧ ∀ h : Fin 256, (outsAt0 m c t.val t.isLt).2.2.2.2 (ix2 r h)
        = ((Real.exp (-μ) * Np m c (pb t) (prow t r) h ((pj t).val + 1) : ℝ) : EReal)

variable (hq : AllReal (argQ m c)) (hk : AllReal (argK m c)) (hv : AllReal (argV m c)) (hM : AllReal (argM m c))
  (hW : AllReal (argW m c)) (hb : AllReal (argB m c))

include hq hk hv hM hW hb

/-- A tile's first key block. -/
theorem inv_first (t : Fin cfg0.N) (h0 : t.val % 8 = 0) : Inv m c t := by
  have h1 : ¬t.val % 8 = 7 := by omega
  have hj : (pj t).val = 0 := h0
  have hqp : ∀ (r : Fin 2048) (o : Fin 256),
      k0_pay4 (F := Ideal) (qblk m c t) (wblk m c t) (bblk m c t) (ix2 r o)
        = proj (argQ m c) (argW m c) (argB m c) (pb t) (prow t r) o := by
    intro r o
    rw [Pay.pay4_apply]
    simp only [qblk_apply, wblk_apply, bblk_apply]
    rfl
  refine ⟨fun r o => by rw [compA0 m c t h0 h1]; exact hqp r o, fun r => ?_⟩
  obtain ⟨μ', e1, e2, e3⟩ := Step.first (k0_pay4 (F := Ideal) (qblk m c t) (wblk m c t) (bblk m c t)) (kblk m c t) (mblk m c t)
    (vblk m c t) r (fun cc => sc m c (pb t) (prow t r) (kix (pj t) cc))
    (fun cc => score_block m c t _ r (hqp r) cc)
    (fun cc => score_isReal hq hk hM hW hb _ _ _)
    (fun cc h => by rw [vblk_apply]; exact hv _)
  refine ⟨μ', ?_, ?_, fun h => ?_⟩
  · rw [compA1 m c t h0 h1]; exact e1
  · rw [compA2 m c t h0 h1, e2, Zp_succ, hj]
    simp only [Zp, partialBlocks_zero, zero_add]
  · rw [compA3 m c t h0 h1, e3 h, Np_succ, hj]
    simp only [Np, partialBlocks_zero, zero_add, vblk_apply]

/-- A later key block, from the block before. -/
theorem inv_next (t : Fin cfg0.N) (h0 : ¬t.val % 8 = 0) (hlt : t.val - 1 < cfg0.N) (ih : Inv m c ⟨t.val - 1, hlt⟩) :
    Inv m c t := by
  have E0 : (outsAt0 m c t.val t.isLt).2.1 = (prevAt m c t).2.1 := by
    by_cases h1 : t.val % 8 = 7
    · exact compC0 m c t h0 h1
    · exact compB0 m c t h0 h1
  have E1 : (outsAt0 m c t.val t.isLt).2.2.1
      = k0_pay2 (k0_pay9 (prevAt m c t).2.1 (kblk m c t) (mblk m c t) (prevAt m c t).2.2.1) := by
    by_cases h1 : t.val % 8 = 7
    · exact compC1 m c t h0 h1
    · exact compB1 m c t h0 h1
  have E2 : (outsAt0 m c t.val t.isLt).2.2.2.1
      = k0_pay12 (prevAt m c t).2.1 (kblk m c t) (mblk m c t) (prevAt m c t).2.2.1 (prevAt m c t).2.2.2.1 := by
    by_cases h1 : t.val % 8 = 7
    · exact compC2 m c t h0 h1
    · exact compB2 m c t h0 h1
  have E3 : (outsAt0 m c t.val t.isLt).2.2.2.2
      = k0_pay1 (k0_pay10 (prevAt m c t).2.1 (kblk m c t) (mblk m c t) (prevAt m c t).2.2.1)
          (k0_pay11 (prevAt m c t).2.1 (kblk m c t) (mblk m c t) (prevAt m c t).2.2.1) (vblk m c t) (prevAt m c t).2.2.2.2 := by
    by_cases h1 : t.val % 8 = 7
    · exact compC3 m c t h0 h1
    · exact compB3 m c t h0 h1
  have hpb := pb_pred t h0 hlt
  have hpj := pj_pred t h0 hlt
  have hqp : ∀ (r : Fin 2048) (o : Fin 256),
      (prevAt m c t).2.1 (ix2 r o) = proj (argQ m c) (argW m c) (argB m c) (pb t) (prow t r) o := by
    intro r o
    have := ih.qp r o
    rw [hpb, prow_pred t h0 hlt r] at this
    exact this
  refine ⟨fun r o => by rw [E0]; exact hqp r o, fun r => ?_⟩
  obtain ⟨μ, hm1, hl1, ha1⟩ := ih.st r
  rw [hpb, prow_pred t h0 hlt r, hpj] at hl1
  simp only [hpb, prow_pred t h0 hlt r, hpj] at ha1
  obtain ⟨μ', e1, e2, e3⟩ := Step.next (prevAt m c t).2.1 (kblk m c t) (mblk m c t) (vblk m c t)
    (prevAt m c t).2.2.1 (prevAt m c t).2.2.2.1 (prevAt m c t).2.2.2.2 r
    (fun cc => sc m c (pb t) (prow t r) (kix (pj t) cc))
    (fun cc => score_block m c t _ r (hqp r) cc)
    (fun cc => score_isReal hq hk hM hW hb _ _ _)
    (fun cc h => by rw [vblk_apply]; exact hv _)
    μ (Zp m c (pb t) (prow t r) (pj t).val) (fun h => Np m c (pb t) (prow t r) h (pj t).val) hm1 hl1 ha1
  refine ⟨μ', ?_, ?_, fun h => ?_⟩
  · rw [E1]; exact e1
  · rw [E2, e2, Zp_succ]
  · rw [E3, e3 h, Np_succ]
    simp only [vblk_apply]

/-- The state after every point. -/
theorem inv : ∀ (n : ℕ) (hn : n < cfg0.N), Inv m c ⟨n, hn⟩
  | 0, hn => inv_first m c hq hk hv hM hW hb ⟨0, hn⟩ rfl
  | n + 1, hn => by
    by_cases h0 : (n + 1) % 8 = 0
    · exact inv_first m c hq hk hv hM hW hb ⟨n + 1, hn⟩ h0
    · exact inv_next m c hq hk hv hM hW hb ⟨n + 1, hn⟩ h0 (Nat.lt_of_succ_lt hn) (inv n (Nat.lt_of_succ_lt hn))

/-- At a tile's last key block the output block holds the weighted average. -/
theorem out_last (t : Fin cfg0.N) (h7 : t.val % 8 = 7) (r : Fin 2048) (h : Fin 256) :
    (outsAt0 m c t.val t.isLt).1 (ix3 0 r h)
      = G (argQ m c) (argK m c) (argV m c) (argM m c) (argW m c) (argB m c) (ix3 (pb t) (prow t r) h) := by
  have h0 : ¬t.val % 8 = 0 := by omega
  have hj : (pj t).val + 1 = 8 := by show t.val % 8 + 1 = 8; omega
  obtain ⟨μ, _, hl, ha⟩ := (inv m c hq hk hv hM hW hb t.val t.isLt).st r
  rw [hj] at hl
  have ha' := ha h
  rw [hj] at ha'
  haveI : Nonempty (Fin 4096) := ⟨0⟩
  have hZ : 0 < Zp m c (pb t) (prow t r) 8 := by
    unfold Zp; rw [partialBlocks_eight]; exact sum_exp_pos _
  rw [compC6 m c t h0 h7, ← compC3 m c t h0 h7, ← compC2 m c t h0 h7,
    Step.quotient _ _ r h μ (Np m c (pb t) (prow t r) h 8) (Zp m c (pb t) (prow t r) 8) hZ hl ha', G_ix3]
  unfold Np Zp avg
  rw [partialBlocks_eight, partialBlocks_eight]

end Attn.Kernel

end
-- ==== Proof.KernelFinal.lean ====
/-
  From the output blocks to the output array. The output window's block at point `t` is rows
  `2048 · tile … 2048 · tile + 2047` of batch `pb t`; it is written back only after a tile's last key block, where
  the block holds the weighted average (KernelInv.out_last). Every index of the array lies in the block of exactly
  such a point, so the array after the run is `G` of the arguments.
-/
import proofs.«430789_j24842090840792_3_alg».proof.Proof.KernelInv
import proofs.«430789_j24842090840792_3_alg».proof.Proof.Gen.KernelIdeal.Value
import Idealize.ShloMosaic.Lib.Pipeline.Value

noncomputable section

namespace Attn.Kernel

open Cert.KernelIdeal Cert.KernelIdeal.Gen Idealize.ShloMosaic Idealize.ShloMosaic.TcCoe Idealize.SL.Sem
open Idealize.ShloMosaic.ValueIdx OnlineSoftmax Attn
open Idealize.ShloMosaic.Pipeline (Dat)

variable (m : (ℓ : Loc nD τ sig) → Buf (Elt Ideal) ℓ) (c : Dev nD)
variable (hq : AllReal (argQ m c)) (hk : AllReal (argK m c)) (hv : AllReal (argV m c)) (hM : AllReal (argM m c))
  (hW : AllReal (argW m c)) (hb : AllReal (argB m c))

/-- Where the output window's block sits at point `t`, in blocks: decided over the 64 points of the grid. -/
theorem idx6 : ∀ t : Fin cfg0.N, win0_6.index t 0 = t.val / 16 ∧ win0_6.index t 1 = (t.val / 8) % 2 ∧ win0_6.index t 2 = 0 :=
  (by decide +kernel : ∀ t : Fin grid0.N, win0_6.index t 0 = t.val / 16 ∧ win0_6.index t 1 = (t.val / 8) % 2 ∧ win0_6.index t 2 = 0)

/-- An index of the array is in point `t`'s block iff each coordinate is in the block's range on its axis. -/
theorem mem_blk6 (t : Fin cfg0.N) (i : S4x4096x256.Idx) :
    i ∈ ((cfg0.win 6).blk t).view.set ↔ ∀ a : Fin 3, win0_6.index t a * S1x2048x256.size a ≤ (i a).val
      ∧ (i a).val < win0_6.index t a * S1x2048x256.size a + S1x2048x256.size a := by
  show i ∈ ((View.whole main_v1).slice (win0_6.rect t)).set ↔ _
  rw [View.set_slice_whole, Rect.mem_set_unit]
  exact Iff.rfl

/-- Every index `(b, n, h)` of the array lies in the block of the last key block's point of its batch and tile,
    `t = 16 b + 8 (n / 2048) + 7`. -/
theorem cover6 (i : S4x4096x256.Idx) :
    ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 256 := (i 2).isLt
  have hN : cfg0.N = 64 := N_0
  obtain ⟨t, tv⟩ : ∃ t : Fin cfg0.N, t.val = 16 * (i 0).val + 8 * ((i 1).val / 2048) + 7 :=
    ⟨⟨16 * (i 0).val + 8 * ((i 1).val / 2048) + 7, lt_of_lt_of_eq (by omega) hN.symm⟩, rfl⟩
  refine ⟨t, (flush0_6 t).mpr (by omega), ?_⟩
  rw [mem_blk6]
  obtain ⟨e0, e1, e2⟩ := idx6 t
  intro a
  match a with
  | ⟨0, _⟩ =>
    show win0_6.index t 0 * 1 ≤ (i 0).val ∧ (i 0).val < win0_6.index t 0 * 1 + 1
    rw [e0]; omega
  | ⟨1, _⟩ =>
    show win0_6.index t 1 * 2048 ≤ (i 1).val ∧ (i 1).val < win0_6.index t 1 * 2048 + 2048
    rw [e1]; omega
  | ⟨2, _⟩ =>
    show win0_6.index t 2 * 256 ≤ (i 2).val ∧ (i 2).val < win0_6.index t 2 * 256 + 256
    rw [e2]; omega

include hq hk hv hM hW hb

/-- At a tile's last key block the staged output block, at row `r` and feature `h`, is `G` at the array index the
    block's embedding sends `(0, r, h)` to: batch `pb t`, row `prow t r`, feature `h`. -/
theorem blk_apply6 (t : Fin cfg0.N) (h7 : t.val % 8 = 7) (r : Fin 2048) (h : Fin 256) :
    (outsAt0 m c t.val t.isLt).1 (ix3 0 r h)
      = G (argQ m c) (argK m c) (argV m c) (argM m c) (argW m c) (argB m c)
          (((cfg0.win 6).blk t).view.emb (ix3 (0 : Fin 1) r h : S1x2048x256.Idx)) := by
  rw [out_last m c hq hk hv hM hW hb t h7 r h]
  refine congrArg (G (argQ m c) (argK m c) (argV m c) (argM m c) (argW m c) (argB m c)) ?_
  symm
  funext a
  apply Fin.ext
  match a with
  | ⟨0, _⟩ =>
    show win0_6.index t 0 * 1 + 1 * ((ix3 (0 : Fin 1) r h : S1x2048x256.Idx) 0).val = (pb t).val
    rw [(idx6 t).1]; simp [pb, ix3]
  | ⟨1, _⟩ =>
    show win0_6.index t 1 * 2048 + 1 * ((ix3 (0 : Fin 1) r h : S1x2048x256.Idx) 1).val = (prow t r).val
    rw [(idx6 t).2.1]; simp [prow, ix3]; omega
  | ⟨2, _⟩ =>
    show win0_6.index t 2 * 256 + 1 * ((ix3 (0 : Fin 1) r h : S1x2048x256.Idx) 2).val = h.val
    rw [(idx6 t).2.2]; simp [ix3]

/-- What a flushing point writes back is its block of `G` of the arguments. -/
theorem flushed_eq6 (t : Fin cfg0.N) (hf : (cfg0.win 6).flush t = true) :
    (dats m 0 c).flushed 6 t = ((cfg0.win 6).blk t).view.read (Elt Ideal)
      (G (argQ m c) (argK m c) (argV m c) (argM m c) (argW m c) (argB m c)) := by
  have h7 : t.val % 8 = 7 := (flush0_6 t).mp hf
  rw [Value.flushed6]
  funext y
  rw [View.read_apply]
  have hy : y = (ix3 (0 : Fin 1) (y 1) (y 2) : S1x2048x256.Idx) := by
    funext a
    match a with
    | ⟨0, _⟩ => exact Subsingleton.elim (α := Fin 1) _ _
    | ⟨1, _⟩ => rfl
    | ⟨2, _⟩ => rfl
  have key := blk_apply6 m c hq hk hv hM hW hb t h7 (y 1) (y 2)
  rw [← hy] at key
  exact key

/-- The output array after the run is the weighted average of the arguments. -/
theorem final :
    (dats m 0 c).arrAt 6 cfg0.N = G (argQ m c) (argK m c) (argV m c) (argM m c) (argW m c) (argB m c) := by
  exact (dats m 0 c).arrAt_eq_of_cover 6 (G (argQ m c) (argK m c) (argV m c) (argM m c) (argW m c) (argB m c))
    (flushed_eq6 m c hq hk hv hM hW hb) cover6

end Attn.Kernel

end
-- ==== Proof.lean ====
/-
  The attention block against its reference, over the extended reals.

  Both programs compute, for every batch, query row and output column, the softmax of the row's 4096 masked scores
  `(q · Wᵀ + b) · kᵀ - 10⁶ · (1 - mask)` used as weights on the rows of `v`. The reference does it in one piece:
  the scores shifted by the row maximum, exponentiated, divided by their row sum, contracted with `v`. The kernel
  walks the keys in eight blocks of 512 and keeps, per query row, a running maximum `μ`, the sum
  `exp (-μ) · Z` and the weighted sums `exp (-μ) · N` of the blocks seen so far, rescaling by `exp (μ - μ')` when
  the maximum moves, and divides at the last block. Over the reals the shift cancels from the quotient, so both are
  `N / Z = (∑ j, exp (score j) · v j) / (∑ j, exp (score j))` (Spec.lean's `G`); this needs every score and value to
  be a real number, which is what finite inputs give: the running maximum starts at `-∞`, where `exp` is `0`, and is a
  real number from the first block on.

  The kernel's two frames are the generated frame certificates; the reference's frame is its generated run with the
  result dropped; the idealization rewrote nothing, so `preserves` is trivial. For `algebraic` the kernel's output
  array is opened block by block (KernelPieces, KernelComps, KernelInv, KernelFinal) and the reference's result one
  operation at a time (RefValue), both ending at `G` of the argument arrays (Finite.lean turns the precondition into
  real entries).
-/
import proofs.«430789_j24842090840792_3_alg».proof.Defs
import proofs.«430789_j24842090840792_3_alg».proof.Proof.Gen.Kernel
import proofs.«430789_j24842090840792_3_alg».proof.Proof.Gen.Kernel.Skeleton
import proofs.«430789_j24842090840792_3_alg».proof.Proof.Gen.Kernel.Launch
import proofs.«430789_j24842090840792_3_alg».proof.Proof.Gen.Kernel.Points
import proofs.«430789_j24842090840792_3_alg».proof.Proof.Gen.Kernel.Frame
import proofs.«430789_j24842090840792_3_alg».proof.Proof.Gen.KernelIdeal
import proofs.«430789_j24842090840792_3_alg».proof.Proof.Gen.KernelIdeal.Skeleton
import proofs.«430789_j24842090840792_3_alg».proof.Proof.Gen.KernelIdeal.Launch
import proofs.«430789_j24842090840792_3_alg».proof.Proof.Gen.KernelIdeal.Points
import proofs.«430789_j24842090840792_3_alg».proof.Proof.Gen.KernelIdeal.Frame
import proofs.«430789_j24842090840792_3_alg».proof.Proof.Gen.ReferenceIdeal
import proofs.«430789_j24842090840792_3_alg».proof.Proof.Gen.Pre_finite_inputs
import proofs.«430789_j24842090840792_3_alg».proof.Proof.Gen.KernelIdeal.Value
import proofs.«430789_j24842090840792_3_alg».proof.Proof.Gen.ReferenceIdeal.Run
import proofs.«430789_j24842090840792_3_alg».proof.Proof.Gen.ReferenceIdeal.Read
import proofs.«430789_j24842090840792_3_alg».proof.Proof.Finite
import proofs.«430789_j24842090840792_3_alg».proof.Proof.RefValue
import proofs.«430789_j24842090840792_3_alg».proof.Proof.KernelFinal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the weighted average `G` of the (agreeing, finite) arguments. -/
theorem algebraic : Cert.algebraic_KernelIdeal_ReferenceIdeal := by
  intro m ρ m' ρ' hpre hagree
  have hfin := fun c : Dev Cert.KernelIdeal.nD => Attn.allReal_of_finite _ _ _ _ _ _ (hpre c)
  refine ⟨fun c => Attn.G (Attn.Kernel.argQ m c) (Attn.Kernel.argK m c) (Attn.Kernel.argV m c) (Attn.Kernel.argM m c)
    (Attn.Kernel.argW m c) (Attn.Kernel.argB m c), ?_, ?_⟩
  · refine (θ_run Cert.KernelIdeal.defs _ _).mono (fun r h c => ⟨(h c).1.trans ?_, (h c).2⟩)
      (Cert.KernelIdeal.Value.run_blocks (F := Ideal) m ρ)
    obtain ⟨h0, h1, h2, h3, h4, h5⟩ := hfin c
    exact Attn.Kernel.final m c h0 h1 h2 h3 h4 h5
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := hfin c
    rw [Cert.ReferenceIdeal.Read.val_main_v21_eq, (hagree c).1, (hagree c).2.1, (hagree c).2.2.1, (hagree c).2.2.2.1,
      (hagree c).2.2.2.2.1, (hagree c).2.2.2.2.2]
    exact Attn.Ref.result_eq _ _ _ _ _ _ h0 h1 h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
